-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S16x4096 .f32) (main_arg3 : FVec F S4096x16 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S4096x1 : Shape := ⟨2, ![4096, 1]⟩
abbrev S512x4096 : Shape := ⟨2, ![512, 4096]⟩
abbrev S512x16 : Shape := ⟨2, ![512, 16]⟩
abbrev S512x1 : Shape := ⟨2, ![512, 1]⟩
abbrev S512 : Shape := ⟨1, ![512]⟩
abbrev S1x4096 : Shape := ⟨2, ![1, 4096]⟩
abbrev S512x2048 : Shape := ⟨2, ![512, 2048]⟩
abbrev S1024x2048 : Shape := ⟨2, ![1024, 2048]⟩
abbrev S1x1024 : Shape := ⟨2, ![1, 1024]⟩
abbrev S512x1024 : Shape := ⟨2, ![512, 1024]⟩

abbrev nBuf : Space → Nat
  | .hbm => 12
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S8192x4096, .f32⟩
  | .hbm, ⟨6, _⟩ => ⟨S4096x1, .f32⟩
  | .hbm, ⟨7, _⟩ => ⟨S4096x4096, .bf16⟩
  | .hbm, ⟨8, _⟩ => ⟨S4096x1, .f32⟩
  | .hbm, ⟨9, _⟩ => ⟨S1x4096, .f32⟩
  | .hbm, ⟨10, _⟩ => ⟨S8192x4096, .f32⟩
  | .hbm, ⟨11, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S16x4096, .f32⟩
  | .local _ .vmem, ⟨3, _⟩ => ⟨S512x16, .f32⟩
  | .local _ .vmem, ⟨4, _⟩ => ⟨S512x16, .f32⟩
  | .local _ .vmem, ⟨5, _⟩ => ⟨S512x1, .f32⟩
  | .local _ .vmem, ⟨6, _⟩ => ⟨S512x1, .f32⟩
  | .local _ .vmem, ⟨7, _⟩ => ⟨S512x4096, .bf16⟩
  | .local _ .vmem, ⟨8, _⟩ => ⟨S512x4096, .bf16⟩
  | .local _ .vmem, ⟨9, _⟩ => ⟨S512x1, .f32⟩
  | .local _ .vmem, ⟨10, _⟩ => ⟨S512x1, .f32⟩
  | .local _ .vmem, ⟨11, _⟩ => ⟨S512x2048, .f32⟩
  | .local _ .vmem, ⟨12, _⟩ => ⟨S512x2048, .f32⟩
  | .local _ .vmem, ⟨13, _⟩ => ⟨S1024x2048, .bf16⟩
  | .local _ .vmem, ⟨14, _⟩ => ⟨S1024x2048, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![16, 4, 2], ![false, false, false]⟩

def k1_cond2 (i : grid1.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  shapeCasts_S4096_S4096x1 : S4096.ShapeCasts S4096x1
  inb_S512x4096_S512x4096_0_0 : ∀ a, (![0, 0] : Fin 2 → Nat) a + S512x4096.size a ≤ S512x4096.size a
  h_S512x4096 : 0 < S512x4096.numel
  inb_S512x16_S512x16_0_0 : ∀ a, (![0, 0] : Fin 2 → Nat) a + S512x16.size a ≤ S512x16.size a
  h_S512x16 : 0 < S512x16.numel
  inb_S16x4096_S16x4096_0_0 : ∀ a, (![0, 0] : Fin 2 → Nat) a + S16x4096.size a ≤ S16x4096.size a
  h_S16x4096 : 0 < S16x4096.numel
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S4096x1_S1x4096 : S4096x1.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x4096_S4x2048x4096 : S8192x4096.ShapeCasts S4x2048x4096
  dot_S512x16_S16x4096_S512x4096_1_0_0_1_n_n_wf : DotDims.WF S512x16 S16x4096 S512x4096 [1] [0] [0] [1] [] []
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S4096x16.size a
  hwx0_2 : ∀ i : grid0.Coords, EltTy.bits .f32 = 32 ∨ (Rect.block (s := S4096x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .bf16 = 32 ∨ (Rect.block (s := S4096x4096) S512x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x4096.size a
  hwx1_0 : ∀ i : grid1.Coords, EltTy.bits .f32 = 32 ∨ (Rect.block (s := S8192x4096) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x4096.size a
  hwx1_1 : ∀ i : grid1.Coords, EltTy.bits .bf16 = 32 ∨ (Rect.block (s := S4096x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x4096.size a
  hwx1_3 : ∀ i : grid1.Coords, EltTy.bits .f32 = 32 ∨ (Rect.block (s := S8192x4096) S512x1024.size (cc1_transform_3 i) (hinb1_3 i)).WholeWords (EltTy.packing .f32)

variable [Facts₀]

def dot_S512x16_S16x4096_S512x4096_1_0_0_1_n_n : DotDims S512x16 S16x4096 S512x4096 where
  lhsContracting := [1]
  rhsContracting := [0]
  lhsNonContracting := [0]
  rhsNonContracting := [1]
  lhsBatch := []
  rhsBatch := []
  wf := dot_S512x16_S16x4096_S512x4096_1_0_0_1_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S512x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S8192x16 : Shape := ⟨2, ![8192, 16]⟩
abbrev S_ : Shape := ⟨0, ![]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S8192x4096, .f32⟩
  | .hbm, ⟨6, _⟩ => ⟨S4096x16, .f32⟩
  | .hbm, ⟨7, _⟩ => ⟨S8192x16, .f32⟩
  | .hbm, ⟨8, _⟩ => ⟨S16x4096, .f32⟩
  | .hbm, ⟨9, _⟩ => ⟨S8192x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096x4096, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  shapeCasts_S4x2048x4096_S8192x4096 : S4x2048x4096.ShapeCasts S8192x4096
  transposes_S16x4096_S4096x16_1_0 : S16x4096.Transposes [1, 0] S4096x16
  transposes_S4096x16_S16x4096_1_0 : S4096x16.Transposes [1, 0] S16x4096
  reducesTo_S4096x4096_S4096_d1 : S4096x4096.ReducesTo [1] S4096
  h_S_ : 0 < S_.numel
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []
  dot_S4096x16_S16x4096_S4096x4096_1_0_0_1_n_n_wf : DotDims.WF S4096x16 S16x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.FrameKernelIdeal.R0Data.lean ====
/-
  Region 0 of the program, the kernel that builds the adapted weight: for each block of 512 output rows it adds the
  rank-16 product of the two low-rank factors to the base weight, stores the sum (its format changed), and stores the
  row's magnitude divided by the Euclidean norm of the summed row. This module states, at any contents `V` of the
  core's buffers when the region is entered, what each window's staging buffer holds after the body at each grid
  point: an input's its own block, the two outputs' the body's two stored values of the input blocks.
-/
import proofs.«152272_j55087250538729_1_alg».proof.Proof.Gen.KernelIdeal.Launch
import proofs.«152272_j55087250538729_1_alg».proof.Proof.Gen.KernelIdeal.Skeleton
import proofs.«152272_j55087250538729_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The blocks at their literal types: 512 rows of the base weight, the whole first factor, 512 rows of the second
    factor, 512 entries of the magnitude vector as a column. -/
abbrev baseB (c : Dev nD) (t : Fin cfg0.N) : Vec F S512x4096 .f32 := iblk0 V c 0 t
abbrev loraAB (c : Dev nD) (t : Fin cfg0.N) : Vec F S16x4096 .f32 := iblk0 V c 1 t
abbrev loraBB (c : Dev nD) (t : Fin cfg0.N) : Vec F S512x16 .f32 := iblk0 V c 2 t
abbrev magB (c : Dev nD) (t : Fin cfg0.N) : Vec F S512x1 .f32 := iblk0 V c 3 t

/-- The proof data of pipeline 0 on core `c`: the arrays as the region finds them; after the body each input's
    buffer at its block, output 4's at the stored sum and output 5's at the stored quotient, both of the point's
    input blocks; the invariant the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (baseB V c t) (loraBB V c t) (loraAB V c t)
    | ⟨5, _⟩ => k0_pay2 (baseB V c t) (loraBB V c t) (loraAB V c t) (magB V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay3 (baseB V c t) (loraBB V c t) (loraAB V c t) := by dsimp only [dat0]
theorem after0_5 (c : Dev nD) (t : Fin cfg0.N) :
    (dat0 V c).after 5 t = k0_pay2 (baseB V c t) (loraBB V c t) (loraAB V c t) (magB V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end

end Cert.KernelIdeal.Frm

end
-- ==== Proof.FrameKernelIdeal.R1Data.lean ====
/-
  Region 1 of the program, the blocked matrix product with the scale applied at the end. The grid is 16 × 4 × 2: the
  last axis walks the two halves of the contracted axis. At a point of the first half the body clears its accumulator
  and adds the block product; at a point of the second half it adds the block product to what the point before left
  and stores the accumulator times the scale row into the output block. This module states, at any contents `V` of
  the core's buffers when the region is entered, what the accumulator and each window's staging buffer hold after
  the body at each point, and the region's invariant: the accumulator at the contents the point before left.
-/
import proofs.«152272_j55087250538729_1_alg».proof.Proof.Gen.KernelIdeal.Launch
import proofs.«152272_j55087250538729_1_alg».proof.Proof.Gen.KernelIdeal.Skeleton
import proofs.«152272_j55087250538729_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two control cases, decided over the grid -/

/-- The first conditional's test (the point is in the first half of the contracted axis), as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- The second conditional's test (the point is in the second half), as the body computes it. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-- The inputs are never idle; the output is idle, and not written back, exactly at the points of the first half. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, t.val % 2 = 0 → cfg1.idle 3 (grid1.coords t) = true := by decide +kernel
theorem noFlush1_3 : ∀ t : Fin cfg1.N, t.val % 2 = 0 → (cfg1.win 3).flush t = false := by decide +kernel
theorem liveAt1_3 : ∀ t : Fin cfg1.N, t.val % 2 = 1 → cfg1.idle 3 (grid1.coords t) = false := by decide +kernel

/-! ## What the body leaves -/

/-- The blocks at their literal types: 512 × 2048 of the tokens, 1024 × 2048 of the adapted weight, 1024 entries of
    the scale row. -/
abbrev xB (c : Dev nD) (t : Fin cfg1.N) : Vec F S512x2048 .f32 := iblk1 V c 0 t
abbrev wB (c : Dev nD) (t : Fin cfg1.N) : Vec F S1024x2048 .bf16 := iblk1 V c 1 t
abbrev sB (c : Dev nD) (t : Fin cfg1.N) : Vec F S1x1024 .f32 := iblk1 V c 2 t

/-- The point before `t` (`t` itself at the first point). -/
def prv (t : Fin cfg1.N) : Fin cfg1.N := ⟨t.val - 1, lt_of_le_of_lt (Nat.sub_le _ _) t.isLt⟩

/-- The accumulator after a point of the first half: the cleared accumulator plus the point's block product. -/
def accA (c : Dev nD) (t : Fin cfg1.N) : Vec F S512x1024 .f32 := k1_pay2 (xB V c t) (wB V c t) (k1_pay1 (F := F))
/-- The accumulator after a point of the second half: what the point before left plus the point's block product. -/
def accB (c : Dev nD) (t : Fin cfg1.N) : Vec F S512x1024 .f32 := k1_pay2 (xB V c t) (wB V c t) (accA V c (prv t))
/-- The accumulator after point `t`. -/
def acc1 (c : Dev nD) (t : Fin cfg1.N) : Vec F S512x1024 .f32 := if t.val % 2 = 0 then accA V c t else accB V c t
/-- The output block stored at a point of the second half: the accumulator times the scale row. -/
def out1 (c : Dev nD) (t : Fin cfg1.N) : Vec F S512x1024 .f32 := k1_pay3 (accB V c t) (sB V c t)

theorem acc1_even (c : Dev nD) (t : Fin cfg1.N) (h : t.val % 2 = 0) : acc1 V c t = accA V c t := if_pos h
theorem acc1_odd (c : Dev nD) (t : Fin cfg1.N) (h : ¬ t.val % 2 = 0) : acc1 V c t = accB V c t := if_neg h

/-! ## The invariant -/

/-- The accumulator: a whole scoped buffer of the kernel's own. -/
abbrev scM1 : Memref sig .tc .vmem S512x1024 .f32 := Memref.whole cc1_scratch0

/-- The core's other scoped buffers that no window of this pipeline stages (the first kernel's staging buffers),
    each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The region invariant before position `n`: before the first point the accumulator at anything; afterwards at what
    the point before left; beside it the other scoped buffers at anything and the generator register at some state. -/
def PhiS1 (c : Dev nD) : (n : ℕ) → n ≤ cfg1.N → sProp 𝕄
  | 0, _ => iprop((∃ d, owns (c : Thread nD τ) scM1 fullShare d) ∗ rest1 (F := F) c ∗ (∃ r, prngReg c r))
  | n + 1, hn => iprop(owns (c : Thread nD τ) scM1 fullShare (acc1 V c ⟨n, hn⟩) ∗ rest1 (F := F) c ∗ (∃ r, prngReg c r))

theorem PhiS1_zero (c : Dev nD) (n : ℕ) (h : n ≤ cfg1.N) (hz : n = 0) :
    PhiS1 V c n h = iprop((∃ d, owns (c : Thread nD τ) scM1 fullShare d) ∗ rest1 (F := F) c ∗ (∃ r, prngReg c r)) := by
  subst hz; rfl
theorem PhiS1_succ (c : Dev nD) (n : ℕ) (hn : n < cfg1.N) :
    PhiS1 V c (n + 1) hn = iprop(owns (c : Thread nD τ) scM1 fullShare (acc1 V c ⟨n, hn⟩) ∗ rest1 (F := F) c ∗ (∃ r, prngReg c r)) := rfl
theorem PhiS1_pos (c : Dev nD) (n : ℕ) (h : n ≤ cfg1.N) (hz : n ≠ 0) :
    PhiS1 V c n h = iprop(owns (c : Thread nD τ) scM1 fullShare (acc1 V c ⟨n - 1, by omega⟩) ∗ rest1 (F := F) c ∗ (∃ r, prngReg c r)) := by
  cases n with
  | zero => exact absurd rfl hz
  | succ n => rfl

/-- The proof data of pipeline 1 on core `c`: the arrays as the region finds them; after the body each input's
    buffer at its block and the output's at the scaled accumulator (consulted at the points of the second half only);
    the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end

/-- The scoped buffers no window of this pipeline stages are the accumulator and the first kernel's staging buffers. -/
theorem scoped1_split (c : Dev nD) :
    (Pipeline.scopedRest (Ix := Unit) (Name := ℕ) (U := UR sig nD τ) (Lvl := ℕ) (Val := Elt F) spec1 c : sProp 𝕄)
      ⊢ iprop((∃ d, owns (c : Thread nD τ) scM1 fullShare d) ∗ rest1 (F := F) c) := by
  rw [scopedRest1_eq]; simp only [scM1, owns_whole]; unfold rest1
  iintro ⟨H0, H1, H2, H3, H4, H5, H6, H7, H8, H9, H10, Hs⟩
  isplitl [Hs]; · iexact Hs
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem scoped1_join (c : Dev nD) :
    iprop((∃ d, owns (c : Thread nD τ) scM1 fullShare d) ∗ rest1 (F := F) c)
      ⊢ (Pipeline.scopedRest (Ix := Unit) (Name := ℕ) (U := UR sig nD τ) (Lvl := ℕ) (Val := Elt F) spec1 c : sProp 𝕄) := by
  rw [scopedRest1_eq]; simp only [scM1, owns_whole]; unfold rest1
  iintro ⟨Hs, H0, H1, H2, H3, H4, H5, H6, H7, H8, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact Hs

end Cert.KernelIdeal.Frm

end
-- ==== Proof.FrameKernelIdeal.Fold.lean ====
/-
  The contents of a core's buffers at each boundary of the program, folded from the launch memory: after the two
  reshapes that open it, after the first kernel (its arrays at what its write-backs leave), after the reshape of the
  scale column into a row, after the second kernel, and after the closing reshape. Every pipeline's proof data is
  taken at the contents its region is entered from.
-/
import proofs.«152272_j55087250538729_1_alg».proof.Proof.FrameKernelIdeal.R0Data
import proofs.«152272_j55087250538729_1_alg».proof.Proof.FrameKernelIdeal.R1Data

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (m : (ℓ : Loc nD τ sig) → Buf (Elt F) ℓ)

/-- Core `c`'s buffers at launch. -/
abbrev W0 : Dev nD → Valuation τ sig (Elt F) := fun c b => m (c, b)
/-- After the opening reshapes (the first kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first kernel's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reshape of the scale column into a row (the second kernel's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second kernel's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the closing reshape: the contents the program ends with. -/
abbrev W5 : Dev nD → Valuation τ sig (Elt F) := fun c => StableHlo.after hostOps2 (W4 m c)

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

end

end Cert.KernelIdeal.Frm

end
-- ==== Proof.FrameKernelIdeal.R0Body.lean ====
/-
  The first kernel's body at a grid point: it loads its four input blocks, stores the quotient and the sum, and
  touches nothing else. From that, the pipeline's body obligation at every point.
-/
import proofs.«152272_j55087250538729_1_alg».proof.Proof.FrameKernelIdeal.R0Data
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Two zero offsets, however the pair is spelt, are the zero offsets. -/
private theorem zero_offsets : (![0, 0] : Fin 2 → Nat) = fun _ => 0 := funext fun a => by fin_cases a <;> rfl

set_option maxHeartbeats 1000000 in
/-- The kernel function on six whole buffers. The four inputs are held at contents `x0` (512 rows of the base weight),
    `x1` (the first low-rank factor), `x2` (512 rows of the second factor) and `x3` (512 magnitudes as a column);
    the two outputs are held at some contents, which is all the one load of each needs, and its result is not used.
    The run gives the inputs back as they were, the fifth buffer at the narrowed sum `x0 + x2 · x1` and the sixth at
    the magnitudes divided by the Euclidean norms of that sum's rows. Each store is one rectangle at offset zero of
    the buffer's own extents, so it covers the buffer and what is read back is the stored value itself; each load is
    through the same rectangle, so it reads the whole contents. -/
private theorem adapted_body_triple (c : Dev nD) (E : Set ℕ) (i : grid0.Coords)
    (arg1 : Memref sig .tc .vmem S512x4096 .f32) (harg1 : arg1.IsWhole)
    (arg2 : Memref sig .tc .vmem S16x4096 .f32) (harg2 : arg2.IsWhole)
    (arg3 : Memref sig .tc .vmem S512x16 .f32) (harg3 : arg3.IsWhole)
    (arg4 : Memref sig .tc .vmem S512x1 .f32) (harg4 : arg4.IsWhole)
    (arg5 : Memref sig .tc .vmem S512x4096 .bf16) (harg5 : arg5.IsWhole)
    (arg6 : Memref sig .tc .vmem S512x1 .f32) (harg6 : arg6.IsWhole)
    (x0 : Vec F S512x4096 .f32) (x1 : Vec F S16x4096 .f32) (x2 : Vec F S512x16 .f32) (x3 : Vec F S512x1 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay3 x0 x2 x1)
            ∗ owns (c : Thread nD τ) arg6 fullShare (k0_pay2 x0 x2 x1 x3)) -∗ K ⟨⟩))
      ⊢ wp frame (wpE (defs₀ (F := F)) Variants.none c none) E
          (cc0__adapted_kernel i arg1 harg1 arg2 harg2 arg3 harg3 arg4 harg4 arg5 harg5 arg6 harg6) K := by
  simp only [cc0__adapted_kernel_eq_skeleton]; unfold cc0__adapted_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- the fifth buffer: one covering store, read back as its value, the loads inside it as the whole contents
  isplitl [H4]
  · iexists _; isplitr
    swap; · iexact H4
    ipureintro
    rw [View.read_writes_eq_canon _ _ _ (fun y => ⟨_, List.mem_singleton_self _, View.mem_set_unit_zero zero_offsets inb_S512x4096_S512x4096_0_0 y⟩),
      View.canon_unit_zero zero_offsets]
    simp only [View.readAt_eq_ld, View.ld_unit_zero (S := S512x4096) zero_offsets,
      View.ld_unit_zero (S := S512x16) zero_offsets, View.ld_unit_zero (S := S16x4096) zero_offsets]
  -- the sixth buffer, the same way
  iexists _; isplitr
  swap; · iexact H5
  ipureintro
  rw [View.read_writes_eq_canon _ _ _ (fun y => ⟨_, List.mem_singleton_self _, View.mem_set_unit_zero zero_offsets inb_S512x1_S512x1_0_0 y⟩),
    View.canon_unit_zero zero_offsets]
  simp only [View.readAt_eq_ld, View.ld_unit_zero (S := S512x4096) zero_offsets,
    View.ld_unit_zero (S := S512x16) zero_offsets, View.ld_unit_zero (S := S16x4096) zero_offsets,
    View.ld_unit_zero (S := S512x1) zero_offsets]

section
variable (V : (c : Dev nD) → (b : Ref sig .tc) → Buf (Elt F) ((c : Thread nD τ).loc b))

/-- What the body is entered with at grid point `t`: the region's invariant, what the core owes, and each of the
    six windows' current staging buffers at what it then holds. -/
private def heldBefore0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it gives back: the invariant and the debt at the next point, and each buffer at what the body leaves. -/
private def heldAfter0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at a grid point. The four inputs' staging buffers hold the point's blocks, so the triple above applies
    at those blocks; the invariant and the debt are not read and do not change from one point to the next. -/
private theorem body_at_point0 (c : Dev nD) (t : Fin cfg0.N) :
    heldBefore0 V c t ⊢ wp frame (wpE (defs₀ (F := F)) Variants.none c none) Set.univ (bodyAt0 t) (fun _ => heldAfter0 V c t) := by
  unfold heldBefore0 heldAfter0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (adapted_body_triple c Set.univ _ _ _ _ _ _ _ _ _ _ _ _ _
    (baseB V c t) (loraAB V c t) (loraBB V c t) (magB V c t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for pipeline 0, at every point. -/
theorem body_obligation0 (c : Dev nD) : BodyObligation (dat0 (F := F) V c) (defs₀ (F := F)) Variants.none () Set.univ := fun t => by
  rw [bigSep_W0, bigSep_W0]
  exact body_at_point0 V c t

end

end Cert.KernelIdeal.Frm

end
-- ==== Proof.FrameKernelIdeal.R1Body.lean ====
/-
  The second kernel's body at a grid point, in its two control cases. At a point of the first half it clears the
  accumulator and adds the block product, leaving the output's buffer as it found it; at a point of the second half
  it adds the block product to what the point before left and stores the accumulator times the scale row. From the
  two cases, the pipeline's body obligation at every point.
-/
import proofs.«152272_j55087250538729_1_alg».proof.Proof.FrameKernelIdeal.R1Data
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-buffer loads and stores -/

/-- The whole-buffer rectangle of a rank-two shape starts at the origin. -/
theorem offs1_zero : (![0, 0] : Fin 2 → ℕ) = fun _ => 0 := funext fun a => by fin_cases a <;> rfl

/-- A buffer whose last store went through the whole-shape rectangle at the origin reads as that store's payload,
    whatever it held and whatever was stored before. -/
theorem read_last_whole1 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (p : S.Idx → Elt F e) (L : List (View.Piece (Elt F) S e)) :
    v.read (Elt F) (v.writes (Elt F) f ((⟨Rect.unit off S.size inb, p⟩ : View.Piece (Elt F) S e) :: L)) = p := by
  rw [View.read_writes_eq_canon _ _ _ (fun y => ⟨_, List.mem_cons_self, View.mem_set_unit_zero h inb y⟩),
    View.canon_cons_unit_zero h]

/-! ## The body in its two cases, on any whole memrefs -/

/-- A POINT OF THE FIRST HALF. The first conditional is taken and the second is not. With the token block `x` and the
    weight block `w` in their buffers and the accumulator at anything, the body stores the zero block into the
    accumulator, reads it back, adds the product of the two blocks and stores the sum: the accumulator ends at
    `0 + x·wᵀ`, the inputs are as they were. The scale row's and the output's buffers are not touched. -/
theorem gemm_first_half (c : Dev nD) (i : grid1.Coords)
    (arg3 : Memref sig .tc .vmem S512x2048 .f32) (harg3 : arg3.IsWhole)
    (arg4 : Memref sig .tc .vmem S1024x2048 .bf16) (harg4 : arg4.IsWhole)
    (arg5 : Memref sig .tc .vmem S1x1024 .f32) (harg5 : arg5.IsWhole)
    (arg6 : Memref sig .tc .vmem S512x1024 .f32) (harg6 : arg6.IsWhole)
    (arg7 : Memref sig .tc .vmem S512x1024 .f32) (harg7 : arg7.IsWhole)
    (hc0 : cond1_0 i) (hc1 : ¬cond1_1 i)
    (x : Vec F S512x2048 .f32) (w : Vec F S1024x2048 .bf16) (E : Set ℕ) (K : PUnit → sProp 𝕄) :
    iprop(owns (c : Thread nD τ) arg3 fullShare x ∗ owns (c : Thread nD τ) arg4 fullShare w ∗ (∃ d, owns (c : Thread nD τ) arg7 fullShare d)
        ∗ (iprop(owns (c : Thread nD τ) arg3 fullShare x ∗ owns (c : Thread nD τ) arg4 fullShare w
            ∗ owns (c : Thread nD τ) arg7 fullShare (k1_pay2 x w (k1_pay1 (F := F)))) -∗ K ⟨⟩))
      ⊢ wp frame (wpE (defs₀ (F := F)) Variants.none c none) E (cc1__gemm_kernel i arg3 harg3 arg4 harg4 arg5 harg5 arg6 harg6 arg7 harg7) K := by
  simp only [cc1__gemm_kernel_eq_skeleton]; unfold cc1__gemm_kernel_skel
  unfold owns
  iintro ⟨⟨%f0, %hf0, H0⟩, ⟨%f1, %hf1, H1⟩, ⟨%ds0, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  -- the accumulator's last store covers it; the value it adds to is the zero block read back
  rw [read_last_whole1 _ _ offs1_zero]
  sl_unfold_words
  simp only [View.readAt_eq_ld, harg3.read_unread, harg4.read_unread, View.ld_unit_zero (S := S512x2048) offs1_zero,
    View.ld_unit_zero (S := S1024x2048) offs1_zero, View.readCov_unit_zero (S := S512x1024) _ offs1_zero]

/-- A POINT OF THE SECOND HALF. The first conditional is not taken and the second is. With the blocks `x`, `w`, the
    scale row `s` in their buffers, the accumulator at `a` and the output's buffer at anything, the body adds the
    product of the two blocks to `a`, stores the sum `a + x·wᵀ` into the accumulator, reads it back and stores it times
    the scale row into the output's buffer. -/
theorem gemm_second_half (c : Dev nD) (i : grid1.Coords)
    (arg3 : Memref sig .tc .vmem S512x2048 .f32) (harg3 : arg3.IsWhole)
    (arg4 : Memref sig .tc .vmem S1024x2048 .bf16) (harg4 : arg4.IsWhole)
    (arg5 : Memref sig .tc .vmem S1x1024 .f32) (harg5 : arg5.IsWhole)
    (arg6 : Memref sig .tc .vmem S512x1024 .f32) (harg6 : arg6.IsWhole)
    (arg7 : Memref sig .tc .vmem S512x1024 .f32) (harg7 : arg7.IsWhole)
    (hc0 : ¬cond1_0 i) (hc1 : cond1_1 i)
    (x : Vec F S512x2048 .f32) (w : Vec F S1024x2048 .bf16) (s : Vec F S1x1024 .f32) (a : Vec F S512x1024 .f32)
    (E : Set ℕ) (K : PUnit → sProp 𝕄) :
    iprop(owns (c : Thread nD τ) arg3 fullShare x ∗ owns (c : Thread nD τ) arg4 fullShare w ∗ owns (c : Thread nD τ) arg5 fullShare s
        ∗ (∃ d, owns (c : Thread nD τ) arg6 fullShare d) ∗ owns (c : Thread nD τ) arg7 fullShare a
        ∗ (iprop(owns (c : Thread nD τ) arg3 fullShare x ∗ owns (c : Thread nD τ) arg4 fullShare w ∗ owns (c : Thread nD τ) arg5 fullShare s
            ∗ owns (c : Thread nD τ) arg6 fullShare (k1_pay3 (k1_pay2 x w a) s)
            ∗ owns (c : Thread nD τ) arg7 fullShare (k1_pay2 x w a)) -∗ K ⟨⟩))
      ⊢ wp frame (wpE (defs₀ (F := F)) Variants.none c none) E (cc1__gemm_kernel i arg3 harg3 arg4 harg4 arg5 harg5 arg6 harg6 arg7 harg7) K := by
  simp only [cc1__gemm_kernel_eq_skeleton]; unfold cc1__gemm_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg3.eq_unread hf0; obtain rfl := harg4.eq_unread hf1; obtain rfl := harg5.eq_unread hf2
  obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    -- the output's one store covers it; the accumulator it scales is the sum just stored, read back
    rw [read_last_whole1 _ _ offs1_zero]
    sl_unfold_words
    simp only [View.readAt_eq_ld, harg3.read_unread, harg4.read_unread, harg5.read_unread, harg7.read_unread,
      View.ld_unit_zero (S := S512x2048) offs1_zero, View.ld_unit_zero (S := S1024x2048) offs1_zero,
      View.ld_unit_zero (S := S1x1024) offs1_zero, View.ld_unit_zero (S := S512x1024) offs1_zero,
      View.readCov_unit_zero (S := S512x1024) _ offs1_zero]
  iexists _; isplitr
  swap; · iexact HS0
  ipureintro
  sl_unfold_words
  rw [read_last_whole1 _ _ offs1_zero]
  simp only [View.readAt_eq_ld, harg3.read_unread, harg4.read_unread, harg7.read_unread,
    View.ld_unit_zero (S := S512x2048) offs1_zero, View.ld_unit_zero (S := S1024x2048) offs1_zero,
    View.ld_unit_zero (S := S512x1024) offs1_zero]

section
variable (V : (c : Dev nD) → (b : Ref sig .tc) → Buf (Elt F) ((c : Thread nD τ).loc b))

/-! ## The invariant around a point -/

/-- Before a point of the first half the invariant holds the accumulator at SOME contents (anything before the first
    point, what the point before left afterwards): all the body needs there, since it clears it. -/
theorem Phi1_before_first (c : Dev nD) (t : Fin cfg1.N) :
    (dat1 V c).Φ t.castSucc ⊢ iprop((∃ d, owns (c : Thread nD τ) scM1 fullShare d) ∗ rest1 (F := F) c ∗ (∃ r, prngReg c r)) := by
  rw [Phi1_castSucc V c t]
  by_cases hz : t.val = 0
  · rw [PhiS1_zero V c _ _ hz]
  · rw [PhiS1_pos V c _ _ hz]
    iintro ⟨HS, Hr, Hg⟩
    isplitl [HS]; · iexists _; iexact HS
    isplitl [Hr]; · iexact Hr
    iexact Hg

/-- Before a point of the second half the accumulator is at what the point before, a point of the first half, left. -/
theorem Phi1_before_second (c : Dev nD) (t : Fin cfg1.N) (h : ¬ t.val % 2 = 0) :
    (dat1 V c).Φ t.castSucc
      = iprop(owns (c : Thread nD τ) scM1 fullShare (accA V c (prv t)) ∗ rest1 (F := F) c ∗ (∃ r, prngReg c r)) := by
  have hz : t.val ≠ 0 := fun h0 => h (by rw [h0])
  have hp : (prv t).val % 2 = 0 := by show (t.val - 1) % 2 = 0; omega
  rw [Phi1_castSucc V c t, PhiS1_pos V c _ _ hz]
  exact congrArg (fun a => iprop(owns (c : Thread nD τ) scM1 fullShare a ∗ rest1 (F := F) c ∗ (∃ r, prngReg c r)))
    (acc1_even V c (prv t) hp)

/-- After a point of the first half the accumulator is at the cleared accumulator plus the point's block product. -/
theorem Phi1_after_first (c : Dev nD) (t : Fin cfg1.N) (h : t.val % 2 = 0) :
    (dat1 V c).Φ t.succ
      = iprop(owns (c : Thread nD τ) scM1 fullShare (accA V c t) ∗ rest1 (F := F) c ∗ (∃ r, prngReg c r)) := by
  rw [show (dat1 V c).Φ t.succ = PhiS1 V c (t.val + 1) t.isLt from rfl, PhiS1_succ]
  exact congrArg (fun a => iprop(owns (c : Thread nD τ) scM1 fullShare a ∗ rest1 (F := F) c ∗ (∃ r, prngReg c r)))
    (acc1_even V c t h)

/-- After a point of the second half it is at what the point before left plus the point's block product. -/
theorem Phi1_after_second (c : Dev nD) (t : Fin cfg1.N) (h : ¬ t.val % 2 = 0) :
    (dat1 V c).Φ t.succ
      = iprop(owns (c : Thread nD τ) scM1 fullShare (accB V c t) ∗ rest1 (F := F) c ∗ (∃ r, prngReg c r)) := by
  rw [show (dat1 V c).Φ t.succ = PhiS1 V c (t.val + 1) t.isLt from rfl, PhiS1_succ]
  exact congrArg (fun a => iprop(owns (c : Thread nD τ) scM1 fullShare a ∗ rest1 (F := F) c ∗ (∃ r, prngReg c r)))
    (acc1_odd V c t h)

/-! ## The body obligation, at a generic point -/

/-- Each window's current staging memref at point `t`, as the pipeline hands it to the body, and its wholeness. -/
abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)

/-- What the body is called with at point `t`: the invariant, what the core owes, each window's current buffer at
    what it then holds; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns: the invariant at the next point, what the core owes, each buffer at what the body leaves. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1600000 in
/-- The body at any point. The three inputs' buffers hold their blocks. At a point of the first half the invariant
    yields the accumulator at some contents, the first case's run leaves it at the cleared accumulator plus the block
    product, and the output's buffer, idle and not written back there, is handed back as found. At a point of the second
    half the invariant yields the accumulator at what the point before left, and the second case's run leaves it at that
    plus the block product and the output's buffer at the accumulator times the scale row. The other scoped buffers, the
    generator register and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 128 := lt_of_lt_of_eq t.isLt (show cfg1.N = 128 from N_1)
  by_cases h : t.val % 2 = 0
  · have hc0 : cond1_0 (grid1.coords t) := (hcond1_0 t).mpr h
    have hc1 : ¬cond1_1 (grid1.coords t) := fun h' => by have := (hcond1_1 t).mp h'; omega
    rw [Dat.leavesExact_idle (dat1 V c) 3 t (idleAt1_3 t h) (noFlush1_3 t h), Phi1_after_first V c t h]
    iintro ⟨HΦ, Ho, ⟨%d0, H0⟩, ⟨%d1, H1⟩, ⟨%d2, H2⟩, ⟨%d3, H3⟩⟩
    ihave HΦ' := (Phi1_before_first V c t) $$ HΦ
    icases HΦ' with ⟨HS, Hr, Hg⟩
    iapply (gemm_first_half c (grid1.coords t) (ms1_0 t) (hs1_0 t) (ms1_1 t) (hs1_1 t) (ms1_2 t) (hs1_2 t) (ms1_3 t) (hs1_3 t)
      scM1 (Memref.isWhole_whole _) hc0 hc1 (xB V c t) (wB V c t) Set.univ _)
    isplitl [H0]; · iexact H0
    isplitl [H1]; · iexact H1
    isplitl [HS]; · iexact HS
    iintro ⟨H0, H1, HS⟩
    isplitl [HS Hr Hg]
    · unfold accA
      isplitl [HS]; · iexact HS
      isplitl [Hr]; · iexact Hr
      iexact Hg
    isplitl [Ho]; · iexact Ho
    isplitl [H0]; · iexact H0
    isplitl [H1]; · iexact H1
    isplitl [H2]; · iexact H2
    iexists _; iexact H3
  · have h1 : t.val % 2 = 1 := by omega
    have hc0 : ¬cond1_0 (grid1.coords t) := fun h' => h ((hcond1_0 t).mp h')
    have hc1 : cond1_1 (grid1.coords t) := (hcond1_1 t).mpr h1
    rw [show (dat1 V c).leavesExact 3 t = owns (c : Thread nD τ) (ms1_3 t) fullShare ((dat1 V c).after 3 t) from by
      unfold Dat.leavesExact; rw [liveAt1_3 t h1], after1_3]
    rw [Phi1_before_second V c t h, Phi1_after_second V c t h]
    iintro ⟨⟨HS, Hr, Hg⟩, Ho, ⟨%d0, H0⟩, ⟨%d1, H1⟩, ⟨%d2, H2⟩, ⟨%d3, H3⟩⟩
    iapply (gemm_second_half c (grid1.coords t) (ms1_0 t) (hs1_0 t) (ms1_1 t) (hs1_1 t) (ms1_2 t) (hs1_2 t) (ms1_3 t) (hs1_3 t)
      scM1 (Memref.isWhole_whole _) hc0 hc1 (xB V c t) (wB V c t) (sB V c t) (accA V c (prv t)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · unfold accB
      isplitl [HS]; · iexact HS
      isplitl [Hr]; · iexact Hr
      iexact Hg
    isplitl [Ho]; · iexact Ho
    isplitl [H0]; · iexact H0
    isplitl [H1]; · iexact H1
    isplitl [H2]; · iexact H2
    unfold out1 accB; iexact H3

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Frm

end
-- ==== Proof.FrameKernelIdeal.Run.lean ====
/-
  The run of the whole program: the two kernels as regions among the three stretches of reshapes, each region
  entered from the buffers' contents at the boundary before it and left at the contents after it. Every weakly
  fair execution terminates, and every final memory holds each unscoped buffer at the last boundary's contents.
-/
import proofs.«152272_j55087250538729_1_alg».proof.Proof.FrameKernelIdeal.Fold
import proofs.«152272_j55087250538729_1_alg».proof.Proof.FrameKernelIdeal.R0Body
import proofs.«152272_j55087250538729_1_alg».proof.Proof.FrameKernelIdeal.R1Body

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (m : (ℓ : Loc nD τ sig) → Buf (Elt F) ℓ) (ρ : Dev nD → PrngReg)

/-! ## What a core carries between the segments -/

/-- No core ever owes another a unit: no level is assigned to any semaphore. -/
private abbrev noLevels : GSem nD τ sig → Finset Unit := fun _ => ∅
private abbrev levelOf : GSem nD τ sig → Unit → ℕ := fun _ _ => 0

/-- Beside the unscoped buffers a core carries its generator register, at a state nobody tracks, and its
    account of owed units, empty throughout. -/
private abbrev Side (c : Dev nD) : sProp 𝕄 :=
  iprop((∃ r, prngReg c r) ∗ ∃ W, owes (c : Thread nD τ) (0 : CellTallies nD τ sig Unit) W)

/-- The state at a boundary whose contents are `W`: every unscoped buffer whole at `W c`, and the side state. -/
private abbrev At (W : Dev nD → Valuation τ sig (Elt F)) (c : Dev nD) : sProp 𝕄 :=
  iprop(StableHlo.held (c : Thread nD τ) (Pipeline.ucRefs τ sig) (W c) ∗ Side (F := F) c)

/-- A stretch of reshapes as a segment: it touches unscoped buffers only and allocates nothing, so from the
    contents `W` it runs to the contents folded through its operations, the side state untouched. -/
private abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels levelOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Side

/-- A reshape allocates no buffer: none of the three stretches does. -/
private theorem fresh0 : (hostOps0 : List (HloOp τ sig (Elt F))).Forall fun op => op.fresh = ∅ := ⟨rfl, rfl⟩
private theorem fresh1 : (hostOps1 : List (HloOp τ sig (Elt F))).Forall fun op => op.fresh = ∅ := rfl
private theorem fresh2 : (hostOps2 : List (HloOp τ sig (Elt F))).Forall fun op => op.fresh = ∅ := rfl

/-- The end of the program, the owed account set aside: every unscoped buffer at `W5`, the generator register at
    some state. -/
private abbrev End (c : Dev nD) : sProp 𝕄 :=
  iprop(StableHlo.held (c : Thread nD τ) (Pipeline.ucRefs τ sig) (W5 m c) ∗ ∃ r, prngReg c r)

/-! ## The two kernels as regions -/

-- a library entailment stated over the pinned configuration of a pipeline meets the kernel's own configuration only
-- when unification may unfold plain definitions inside the type of an unknown
set_option backward.isDefEq.respectTransparency.types false in
/-- The first kernel, entered from the contents `W1` and left at `W2`. On entry its six arrays are taken out of
    the unscoped buffers, the rest of them going around the region; the generator register goes into the
    invariant, which is the scoped rest beside that register at every position, and comes back out of it; on
    exit the arrays, at what the write-backs left, rejoin the buffers that went around. Nothing is owed and the
    kernel has no semaphore of its own. -/
private def regA : Pipeline.RegionSeg (pcfgs (F := F)) adm (pdats m) () defs₀ Variants.none noLevels levelOf 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noLevels levelOf 0 fun _ _ => rfl
  pre := At (W1 m)
  post := At (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have take := Pipeline.arrays_of_unscopedBufs (p := 0) (pcfgs (F := F)) adm (pdats m) launch0.win launch0.arr_whole c
      ((pdats m 0 c).share_full fun _ => rfl) (V1 m c) fun _ => rfl
    rw [Pipeline.unscopedBufs_held] at take
    iintro ⟨⟨Hbufs, Hreg, Howe⟩, -, -⟩
    ihave Hsplit := take $$ Hbufs
    icases Hsplit with ⟨Harr, Haround⟩
    imodintro
    isplitl [Harr]; · iexact Harr
    -- no table is prefetched: the conjunction over no index is empty
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩; iexists W
      isplitr; · ipureintro; exact fun _ _ => Or.inl trivial
      iexact Howe
    isplitl [Hreg]; · iexact Hreg
    iexact Haround
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have put := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at put
    iintro ⟨Harr, Howe, Hreg, Haround⟩
    imodintro
    isplitl [Harr Haround]
    · iapply put; isplitl [Harr] <;> iassumption
    isplitl [Hreg]; · iexact Hreg
    unfold Pipeline.Dat.owesAt Pipeline.owesWithin
    icases Howe with ⟨%W, -, Howe⟩; iexists W; iexact Howe

/-- The second kernel's grid has a point: its last position is not its first. -/
private theorem points1_ne_zero : cfg1.N ≠ 0 := by
  show grid1.N ≠ 0; rw [N_1]; decide

-- as for the first kernel
set_option backward.isDefEq.respectTransparency.types false in
/-- The second kernel, entered from the contents `W3` and left at `W4`. Its arrays leave and rejoin the unscoped
    buffers as the first kernel's do. Its invariant follows the accumulator: at the first position the scoped
    rest is cut into the accumulator, at contents nobody chose, and the first kernel's staging buffers; at the
    last position the accumulator holds the last point's sum, which is forgotten so that the scoped rest can be
    put together again. The generator register rides in the invariant from end to end. -/
private def regB : Pipeline.RegionSeg (pcfgs (F := F)) adm (pdats m) () defs₀ Variants.none noLevels levelOf 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noLevels levelOf 1 fun _ _ => rfl
  pre := At (W3 m)
  post := At (W4 m)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have take := Pipeline.arrays_of_unscopedBufs (p := 1) (pcfgs (F := F)) adm (pdats m) launch1.win launch1.arr_whole c
      ((pdats m 1 c).share_full fun _ => rfl) (V3 m c) fun _ => rfl
    rw [Pipeline.unscopedBufs_held] at take
    iintro ⟨⟨Hbufs, Hreg, Howe⟩, -, -⟩
    ihave Hsplit := take $$ Hbufs
    icases Hsplit with ⟨Harr, Haround⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩; iexists W
      isplitr; · ipureintro; exact fun _ _ => Or.inl trivial
      iexact Howe
    isplitl [Hreg]; · iexact Hreg
    iexact Haround
  hin c := by
    rw [show (pdats m 1 c).Φ 0 = iprop((∃ d, owns (c : Thread nD τ) scM1 fullShare d) ∗ rest1 (F := F) c ∗ (∃ r, prngReg c r))
      from PhiS1_zero (V3 m) c _ (Nat.zero_le _) rfl]
    iintro ⟨Hreg, -, Hscoped⟩
    ihave Hcut := scoped1_split (F := F) c $$ Hscoped
    icases Hcut with ⟨Hacc, Hstg⟩
    isplitl [Hacc]; · iexact Hacc
    isplitl [Hstg]; · iexact Hstg
    iexact Hreg
  hout c := by
    rw [Pipeline.ownSems0_none,
      show (pdats m 1 c).Φ (Fin.last _) = iprop(owns (c : Thread nD τ) scM1 fullShare (acc1 (V3 m) c ⟨cfg1.N - 1, by have := points1_ne_zero; omega⟩)
          ∗ rest1 (F := F) c ∗ (∃ r, prngReg c r))
      from PhiS1_pos (V3 m) c _ (Nat.le_refl _) points1_ne_zero]
    iintro ⟨Hacc, Hstg, Hreg⟩
    isplitl [Hreg]; · iexact Hreg
    isplitr; · iempintro
    iapply scoped1_join (F := F) c
    isplitl [Hacc]; · iexists _; iexact Hacc
    iexact Hstg
  hexit c := by
    have put := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at put
    iintro ⟨Harr, Howe, Hreg, Haround⟩
    imodintro
    isplitl [Harr Haround]
    · iapply put; isplitl [Harr] <;> iassumption
    isplitl [Hreg]; · iexact Hreg
    unfold Pipeline.Dat.owesAt Pipeline.owesWithin
    icases Howe with ⟨%W, -, Howe⟩; iexists W; iexact Howe

/-! ## The program as its five segments, and the launch -/

/-- The program's segments in order: the opening reshapes from the launch contents, the first kernel, the reshape
    of the scale column from `W2`, the second kernel, the closing reshape from `W4`. -/
private abbrev parts : List (Pipeline.Seg (pcfgs (F := F)) adm (pdats m) () defs₀ Variants.none noLevels levelOf) :=
  [ .host (stretch hostOps0 hostOps0_sub fresh0 (W0 m)),
    .region (regA m),
    .host (stretch hostOps1 hostOps1_sub fresh1 (W2 m)),
    .region (regB m),
    .host (stretch hostOps2 hostOps2_sub fresh2 (W4 m)) ]

/-- The program is the run of those segments: it is the chain of its five items, and the segments' run unfolds
    to the same chain. -/
private theorem main_parts (c : Dev nD) : main (F := F) c = Pipeline.Seg.run (parts m) :=
  (main_chain c).trans (by chain_rfl)

/-- After the closing reshape the state is the end state beside the empty owed account: the generator register moves
    next to the buffers, the account stands alone. -/
private theorem closing (c : Dev nD) :
    At (W5 m) c ⊢ iprop(End m c ∗ ∃ W, owes (c : Thread nD τ) (0 : CellTallies nD τ sig Unit) W) := by
  iintro ⟨Hbufs, Hreg, Howe⟩
  isplitl [Hbufs Hreg]
  · isplitl [Hbufs]; · iexact Hbufs
    iexact Hreg
  iexact Howe

-- the launch theorem's implicit arguments are found by unifying its conclusion with the statement, which takes
-- unfolding plain definitions inside the type of an unknown
set_option backward.isDefEq.respectTransparency.types false in
/-- THE RUN: from any memory with zero counters every weakly fair execution of the program terminates, nothing
    faulting, and every final memory holds every unscoped buffer of every core at `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ Variants.none noLevels levelOf m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the staging cells' own; no core gets a ghost resource besides
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (W0 m)) (Tₙ := End m)
    (hch := ⟨fun _ => .rfl, fun _ => .rfl, fun _ => .rfl, fun _ => .rfl, fun _ => .rfl, closing m⟩)
    (hinit := by
      -- each core by itself: its unscoped buffers at the launch memory, its register at the launch state, owing nothing
      refine Pipeline.initEach noLevels levelOf fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howe, -, Hreg, -⟩, -⟩
      imodintro
      isplitl [Hbufs]; · iexact Hbufs
      isplitl [Hreg]; · iexists _; iexact Hreg
      iexists ∅; iexact Howe)
    (QY := fun c s => ∀ b ∈ Pipeline.ucRefs τ sig, s.mem (((c : Thread nD τ)).1, b) = W5 m c b)
    (hfin := fun c s' => by
      -- a buffer held whole agrees with the memory of any state it is held beside
      iintro ⟨⟨Hbufs, -⟩, HSI⟩
      unfold StableHlo.held
      imodintro
      iapply (pointsTo_read_all (Pipeline.ucRefs τ sig) (fun b => (((c : Thread nD τ)).1, b)) (W5 m c) s')
      isplitl [Hbufs] <;> iassumption)
    (hQ := fun _ h => h)

end

end Cert.KernelIdeal.Frm

end
-- ==== Proof.FrameKernelIdeal.Ends.lean ====
/-
  The argument arrays at the end of the program: none of the four reshapes writes an argument, the first kernel
  only reads the three it stages, the second stages none; so each argument's buffer, read back through the fold of
  the boundaries' contents, holds what it was launched with.
-/
import proofs.«152272_j55087250538729_1_alg».proof.Proof.FrameKernelIdeal.Fold
import proofs.«152272_j55087250538729_1_alg».proof.Proof.Gen.KernelIdeal.Regions

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (m : (ℓ : Loc nD τ sig) → Buf (Elt F) ℓ)

/-- Argument 0 reaches the end as launched: no reshape writes it and no region may change it. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide : main_arg0 ∉ hostOps2_W)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

/-- Argument 1 reaches the end as launched: no reshape writes it and no region may change it. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide : main_arg1 ∉ hostOps2_W)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := (W2_arr m c 0).trans (((dat0 (V1 m) c).arrAt_in 0 rfl _).trans (A_eq0 (V1 m) c 0))
    _ = W0 m c (Proc.devRef .tc main_arg1) := StableHlo.after_of_writes_sub hostOps0 _ hostOps0_writes (by decide : main_arg1 ∉ hostOps0_W)
    _ = m ((c : Thread nD τ).loc main_arg1) := rfl

/-- Argument 2 reaches the end as launched: no reshape writes it and no region may change it. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide : main_arg2 ∉ hostOps2_W)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_writes_sub hostOps0 _ hostOps0_writes (by decide : main_arg2 ∉ hostOps0_W)
    _ = m ((c : Thread nD τ).loc main_arg2) := rfl

/-- Argument 3 reaches the end as launched: no reshape writes it and no region may change it. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide : main_arg3 ∉ hostOps2_W)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := (W2_arr m c 2).trans (((dat0 (V1 m) c).arrAt_in 2 rfl _).trans (A_eq0 (V1 m) c 2))
    _ = W0 m c (Proc.devRef .tc main_arg3) := StableHlo.after_of_writes_sub hostOps0 _ hostOps0_writes (by decide : main_arg3 ∉ hostOps0_W)
    _ = m ((c : Thread nD τ).loc main_arg3) := rfl

/-- Argument 4 reaches the end as launched: no reshape writes it and no region may change it. -/
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide : main_arg4 ∉ hostOps2_W)
    _ = W3 m c (Proc.devRef .tc main_arg4) := W4_of_ne m c main_arg4 (by decide)
    _ = W2 m c (Proc.devRef .tc main_arg4) := StableHlo.after_of_writes_sub hostOps1 _ hostOps1_writes (by decide : main_arg4 ∉ hostOps1_W)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl

end

end Cert.KernelIdeal.Frm

end
-- ==== Proof.FrameKernelIdeal.FrameOf.lean ====
/-
  From the run to the frame claim: a final memory that holds every unscoped buffer at the last boundary's contents
  holds each argument array at its launch contents.
-/
import proofs.«152272_j55087250538729_1_alg».proof.Proof.FrameKernelIdeal.Ends

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (m : (ℓ : Loc nD τ sig) → Buf (Elt F) ℓ) (ρ : Dev nD → PrngReg)

/-- An unscoped reference of the core is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME from the run: every weakly fair execution terminates, nothing faulting, and the five argument arrays
    end as launched. -/
theorem frame_of_run
    (h : θ_run defs (onTc (τ := τ) (main (F := F))) ⟨m, fun _ => 0, ρ⟩ (fun r => ∀ c : Dev nD,
      ∀ b ∈ Pipeline.ucRefs τ sig, r.2.mem (((c : Thread nD τ)).1, b) = W5 m c b)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) h

end

end Cert.KernelIdeal.Frm

end
-- ==== Proof.Spec.lean ====
/-
  The mathematics of the certificate, with no program in it. Over the extended reals:
  the adapted weight is the base weight plus the product of the two low-rank factors; the scale of an output row is
  its magnitude divided by the Euclidean norm of that row of the adapted weight; the result at (token, output row)
  is the inner product of the token with the adapted row, times the row's scale.
  The reference spends the same products in another order: the token against the base row, plus the token first
  against the sixteen rows of one factor and then against the other. For finite entries the two agree, by
  distributivity and exchanging the two finite sums.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- Arrays of extended reals of rank 2 and rank 1. -/
abbrev T2 (a b : Nat) : Type := (⟨2, ![a, b]⟩ : Shape).Idx → EReal
abbrev T1 (a : Nat) : Type := (⟨1, ![a]⟩ : Shape).Idx → EReal

/-- The adapted weight: base plus the rank-16 product. -/
def aw (base : T2 4096 4096) (A : T2 16 4096) (B : T2 4096 16) : T2 4096 4096 :=
  fun i => base i + ∑ r : Fin 16, B (ix2 (i 0) r) * A (ix2 r (i 1))

/-- The squared Euclidean norm of a row. -/
def rowSq (W : T2 4096 4096) (o : Fin 4096) : EReal := ∑ k : Fin 4096, W (ix2 o k) * W (ix2 o k)

/-- The scale, as a column: magnitude over the row's norm. -/
def scaleCol (W : T2 4096 4096) (mag : T2 4096 1) : T2 4096 1 :=
  fun i => Ideal.div (mag i) (Ideal.sqrt (rowSq W (i 0)))

/-- The result: a token's inner product with a row of the weight, times the row's scale (given as a row vector). -/
def gemm (x : T2 8192 4096) (W : T2 4096 4096) (s : T2 1 4096) : T2 8192 4096 :=
  fun i => (∑ k : Fin 4096, x (ix2 (i 0) k) * W (ix2 (i 1) k)) * s (ix2 0 (i 1))

/-- A vector as a one-column array, and a one-column array as a one-row array: the two reshapes around the first kernel. -/
def colOf (v : T1 4096) : T2 4096 1 := fun i => v (ix1 (i 0))
def rowOf (s : T2 4096 1) : T2 1 4096 := fun i => s (ix2 (i 1) 0)

/-- The scale as a vector: magnitude over the row's norm. -/
def scaleVec (W : T2 4096 4096) (mag : T1 4096) : T1 4096 :=
  fun o => Ideal.div (mag o) (Ideal.sqrt (rowSq W (o 0)))

theorem rowOf_scaleCol_colOf (W : T2 4096 4096) (mag : T1 4096) (i : (⟨2, ![1, 4096]⟩ : Shape).Idx) :
    rowOf (scaleCol W (colOf mag)) i = scaleVec W mag (ix1 (i 1)) := rfl

/-- The reference's order of the same products. -/
def refAcc (x : T2 8192 4096) (base : T2 4096 4096) (A : T2 16 4096) (B : T2 4096 16) (t : Fin 8192) (o : Fin 4096) : EReal :=
  (∑ k : Fin 4096, x (ix2 t k) * base (ix2 o k)) + ∑ r : Fin 16, (∑ k : Fin 4096, x (ix2 t k) * A (ix2 r k)) * B (ix2 o r)

/-- An array all of whose entries are real numbers. -/
def Finite {ι : Type} (f : ι → EReal) : Prop := ∀ i, ∃ r : ℝ, f i = (r : EReal)

/-- A real finite sum, seen in the extended reals, is the sum of the terms seen there. -/
private theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The law over the reals: distribute the token over the adapted row, then exchange the two finite sums. -/
private theorem real_law (xs bs : Fin 4096 → ℝ) (As : Fin 16 → Fin 4096 → ℝ) (Bs : Fin 16 → ℝ) :
    (∑ k : Fin 4096, xs k * (bs k + ∑ r : Fin 16, Bs r * As r k)) =
      (∑ k : Fin 4096, xs k * bs k) + ∑ r : Fin 16, (∑ k : Fin 4096, xs k * As r k) * Bs r := by
  simp only [mul_add, Finset.sum_add_distrib, Finset.mul_sum, Finset.sum_mul]
  congr 1
  rw [Finset.sum_comm]
  exact Finset.sum_congr rfl fun r _ => Finset.sum_congr rfl fun k _ => by ring

/-- The contracted axis walked in two halves, the first from a cleared accumulator, is the whole sum. -/
theorem sum_halves (f : Fin 4096 → EReal) :
    (0 + ∑ k : Fin 2048, f ⟨k.val, by omega⟩) + ∑ k : Fin 2048, f ⟨2048 + k.val, by omega⟩ = ∑ k : Fin 4096, f k := by
  -- 4096 = 2048 + 2048: the whole sum splits into the lower and the upper block of 2048 indices.
  rw [zero_add]
  have h := Fin.sum_univ_add (fun k : Fin (2048 + 2048) => f k)
  exact h.symm

/-- THE LAW: for finite entries, the token against the adapted row is the reference's sum. -/
theorem acc_eq_refAcc (x : T2 8192 4096) (base : T2 4096 4096) (A : T2 16 4096) (B : T2 4096 16)
    (hx : Finite x) (hb : Finite base) (hA : Finite A) (hB : Finite B) (t : Fin 8192) (o : Fin 4096) :
    (∑ k : Fin 4096, x (ix2 t k) * aw base A B (ix2 o k)) = refAcc x base A B t o := by
  -- Name the real number behind every entry; both sides are then real sums seen in the extended reals.
  choose xr hxr using hx
  choose br hbr using hb
  choose Ar hAr using hA
  choose Br hBr using hB
  have hL : (∑ k : Fin 4096, x (ix2 t k) * aw base A B (ix2 o k)) =
      ((∑ k : Fin 4096, xr (ix2 t k) * (br (ix2 o k) + ∑ r : Fin 16, Br (ix2 o r) * Ar (ix2 r k)) : ℝ) : EReal) := by
    show (∑ k : Fin 4096, x (ix2 t k) * (base (ix2 o k) + ∑ r : Fin 16, B (ix2 o r) * A (ix2 r k))) = _
    simp only [hxr, hbr, hAr, hBr, EReal.coe_mul, EReal.coe_add, coe_sum]
  have hR : refAcc x base A B t o =
      (((∑ k : Fin 4096, xr (ix2 t k) * br (ix2 o k)) +
        ∑ r : Fin 16, (∑ k : Fin 4096, xr (ix2 t k) * Ar (ix2 r k)) * Br (ix2 o r) : ℝ) : EReal) := by
    simp only [refAcc, hxr, hbr, hAr, hBr, EReal.coe_mul, EReal.coe_add, coe_sum]
  rw [hL, hR, real_law (fun k => xr (ix2 t k)) (fun k => br (ix2 o k)) (fun r k => Ar (ix2 r k)) (fun r => Br (ix2 o r))]

end Cert.Spec

end
-- ==== Proof.BridgeFold.lean ====
/-
  The second kernel's three input arrays and the program's result, traced through the fold of the boundaries'
  contents at the ideal instance: the tokens are the first argument reshaped; the weight is the first kernel's first
  result; the scale row is the first kernel's second result, a column, laid out as a row; the first kernel's own
  inputs are arguments, the magnitude vector laid out as a column; and the program's result is the second kernel's
  result reshaped.
-/
import proofs.«152272_j55087250538729_1_alg».proof.Proof.FrameKernelIdeal.Fold
import proofs.«152272_j55087250538729_1_alg».proof.Proof.FrameKernelIdeal.Ends
import proofs.«152272_j55087250538729_1_alg».proof.Proof.Gen.KernelIdeal.Regions
import proofs.«152272_j55087250538729_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frm

variable (m : (ℓ : Loc nD τ sig) → Buf (Elt Ideal) ℓ)

/-- The program's result is the second kernel's result array, reshaped. -/
theorem result_eq (c : Dev nD) :
    W5 m c (Proc.devRef .tc main_v5)
      = shapeCast S4x2048x4096 (W4 m c (Proc.devRef .tc main_v4)) shapeCasts_S8192x4096_S4x2048x4096 := by
  show StableHlo.after hostOps2 (W4 m c) (Proc.devRef .tc main_v5) = _
  after_results; rfl

/-- The arguments are unchanged when the first kernel is entered. -/
theorem V1_arg1 (c : Dev nD) : Frm.V1 m c main_arg1 = m ((c : Thread nD τ).loc main_arg1) :=
  StableHlo.after_of_writes_sub hostOps0 _ hostOps0_writes (by decide : main_arg1 ∉ hostOps0_W)
theorem V1_arg2 (c : Dev nD) : Frm.V1 m c main_arg2 = m ((c : Thread nD τ).loc main_arg2) :=
  StableHlo.after_of_writes_sub hostOps0 _ hostOps0_writes (by decide : main_arg2 ∉ hostOps0_W)
theorem V1_arg3 (c : Dev nD) : Frm.V1 m c main_arg3 = m ((c : Thread nD τ).loc main_arg3) :=
  StableHlo.after_of_writes_sub hostOps0 _ hostOps0_writes (by decide : main_arg3 ∉ hostOps0_W)
/-- The magnitude vector enters the first kernel laid out as a column. -/
theorem V1_v1 (c : Dev nD) :
    Frm.V1 m c main_v1 = shapeCast S4096x1 (m ((c : Thread nD τ).loc main_arg4)) shapeCasts_S4096_S4096x1 := by
  show StableHlo.after hostOps0 (W0 m c) (Proc.devRef .tc main_v1) = _
  after_results; rfl
/-- The tokens enter the second kernel as the first argument reshaped. -/
theorem V3_v0 (c : Dev nD) :
    Frm.V3 m c main_v0 = shapeCast S8192x4096 (m ((c : Thread nD τ).loc main_arg0)) shapeCasts_S4x2048x4096_S8192x4096 := by
  have e1 : W3 m c (Proc.devRef .tc main_v0) = W2 m c (Proc.devRef .tc main_v0) :=
    StableHlo.after_of_writes_sub hostOps1 _ hostOps1_writes (by decide : main_v0 ∉ hostOps1_W)
  have e2 : W2 m c (Proc.devRef .tc main_v0) = W1 m c (Proc.devRef .tc main_v0) := W2_of_ne m c main_v0 (by decide)
  have e3 : W1 m c (Proc.devRef .tc main_v0)
      = shapeCast S8192x4096 (m ((c : Thread nD τ).loc main_arg0)) shapeCasts_S4x2048x4096_S8192x4096 := by
    show StableHlo.after hostOps0 (W0 m c) (Proc.devRef .tc main_v0) = _
    after_results; rfl
  exact e1.trans (e2.trans e3)
/-- The weight the second kernel reads is what the first kernel left in its first result array. -/
theorem V3_v2_0 (c : Dev nD) : Frm.V3 m c main_v2_0 = (dat0 (Frm.V1 m) c).arrAt 4 cfg0.N :=
  (StableHlo.after_of_writes_sub hostOps1 _ hostOps1_writes (by decide : main_v2_0 ∉ hostOps1_W)).trans (W2_arr m c 4)
/-- The scale row the second kernel reads is the first kernel's second result array laid out as a row. -/
theorem V3_v3 (c : Dev nD) :
    Frm.V3 m c main_v3 = shapeCast S1x4096 ((dat0 (Frm.V1 m) c).arrAt 5 cfg0.N) shapeCasts_S4096x1_S1x4096 := by
  have e : W3 m c (Proc.devRef .tc main_v3)
      = shapeCast S1x4096 (W2 m c (Proc.devRef .tc main_v2_1)) shapeCasts_S4096x1_S1x4096 := by
    show StableHlo.after hostOps1 (W2 m c) (Proc.devRef .tc main_v3) = _
    after_results; rfl
  exact e.trans (by rw [W2_arr m c 5])
/-- The second kernel's result array at the end of its region. -/
theorem W4_v4 (c : Dev nD) : W4 m c (Proc.devRef .tc main_v4) = (dat1 (Frm.V3 m) c).arrAt 3 cfg1.N := W4_arr m c 3

/-- A vector laid out as a column, and a column laid out as a row, entry by entry. -/
theorem col_eq (v : S4096.Idx → EReal) :
    (shapeCast S4096x1 v shapeCasts_S4096_S4096x1 : S4096x1.Idx → EReal) = Cert.Spec.colOf v := by
  funext i
  exact shapeCast_apply v shapeCasts_S4096_S4096x1 i (ix1 (i 0))
    (by rewrite [Shape.rowMajor_val_one, Shape.rowMajor_val_two]; have h0 : (i 0).val < 4096 := (i 0).isLt; have h1 : (i 1).val < 1 := (i 1).isLt; show (i 0).val = (i 0).val * 1 + (i 1).val; omega)
theorem row_eq (s : S4096x1.Idx → EReal) :
    (shapeCast S1x4096 s shapeCasts_S4096x1_S1x4096 : S1x4096.Idx → EReal) = Cert.Spec.rowOf s := by
  funext i
  exact shapeCast_apply s shapeCasts_S4096x1_S1x4096 i (ix2 (i 1) 0)
    (by rewrite [Shape.rowMajor_val_two, Shape.rowMajor_val_two]; have h0 : (i 0).val < 1 := (i 0).isLt; have h1 : (i 1).val < 4096 := (i 1).isLt; show (i 1).val * 1 + 0 = (i 0).val * 4096 + (i 1).val; omega)

end Cert.KernelIdeal.Val

end
-- ==== Proof.Val0.lean ====
/-
  What the first kernel leaves in its two result arrays, at the ideal instance, as whole-array functions of the
  arrays it was entered with: the adapted weight, and the scale column.
-/
import proofs.«152272_j55087250538729_1_alg».proof.Proof.FrameKernelIdeal.R0Data
import proofs.«152272_j55087250538729_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frm

variable (V : (c : Dev nD) → (b : Ref sig .tc) → Buf (Elt Ideal) ((c : Thread nD τ).loc b))

/-! ## The body's arithmetic at an index

The low-rank product contracts the second factor's second axis with the first factor's first axis: its entry at
(p, q) runs over the sixteen pairs (p, r), (r, q). -/

/-- The left operand's row is the output's row. -/
private theorem lhs_prod_0 (i : S512x4096.Idx) (q : dot_S512x16_S16x4096_S512x4096_1_0_0_1_n_n.contr.Idx) :
    (dot_S512x16_S16x4096_S512x4096_1_0_0_1_n_n.lhsIdx i q 0).val = (i 0).val := by
  unfold DotDims.lhsIdx
  rw [dif_neg (show ¬(0 : Fin S512x16.rank) ∈ dot_S512x16_S16x4096_S512x4096_1_0_0_1_n_n.lhsBatch by decide), dif_pos (show (0 : Fin S512x16.rank) ∈ dot_S512x16_S16x4096_S512x4096_1_0_0_1_n_n.lhsNonContracting by decide)]
  rfl
/-- The left operand's column is the contracted coordinate. -/
private theorem lhs_prod_1 (i : S512x4096.Idx) (q : dot_S512x16_S16x4096_S512x4096_1_0_0_1_n_n.contr.Idx) :
    (dot_S512x16_S16x4096_S512x4096_1_0_0_1_n_n.lhsIdx i q 1).val = (q ⟨0, by decide⟩).val :=
  dot_S512x16_S16x4096_S512x4096_1_0_0_1_n_n.lhsIdx_val_of_single rfl i q
/-- The right operand's row is the contracted coordinate. -/
private theorem rhs_prod_0 (i : S512x4096.Idx) (q : dot_S512x16_S16x4096_S512x4096_1_0_0_1_n_n.contr.Idx) :
    (dot_S512x16_S16x4096_S512x4096_1_0_0_1_n_n.rhsIdx i q 0).val = (q ⟨0, by decide⟩).val :=
  dot_S512x16_S16x4096_S512x4096_1_0_0_1_n_n.rhsIdx_val_of_single rfl i q
/-- The right operand's column is the output's column. -/
private theorem rhs_prod_1 (i : S512x4096.Idx) (q : dot_S512x16_S16x4096_S512x4096_1_0_0_1_n_n.contr.Idx) :
    (dot_S512x16_S16x4096_S512x4096_1_0_0_1_n_n.rhsIdx i q 1).val = (i 1).val := by
  unfold DotDims.rhsIdx
  rw [dif_neg (show ¬(1 : Fin S16x4096.rank) ∈ dot_S512x16_S16x4096_S512x4096_1_0_0_1_n_n.rhsBatch by decide), dif_pos (show (1 : Fin S16x4096.rank) ∈ dot_S512x16_S16x4096_S512x4096_1_0_0_1_n_n.rhsNonContracting by decide)]
  rfl

/-- The product into a cleared accumulator, at (p, q): the sum over r of B(p, r) · A(r, q). -/
private theorem prod_apply (b : FVec Ideal S512x16 .f32) (a : FVec Ideal S16x4096 .f32) (p : Fin 512) (q : Fin 4096) :
    matmul dot_S512x16_S16x4096_S512x4096_1_0_0_1_n_n none b a (constant (F := Ideal) S512x4096 .f32 0x00000000#32) (ix2 p q)
      = ∑ r : Fin 16, b (ix2 p r) * a (ix2 r q) := by
  refine (Ideal.matmul_constant_zero_apply dot_S512x16_S16x4096_S512x4096_1_0_0_1_n_n none b a (ix2 p q)).trans ?_
  rw [← Equiv.sum_comp (ValueIdx.contrEquiv1 dot_S512x16_S16x4096_S512x4096_1_0_0_1_n_n 16 rfl rfl).symm]
  refine Finset.sum_congr rfl fun k _ => ?_
  have hk := ValueIdx.contrEquiv1_symm_val dot_S512x16_S16x4096_S512x4096_1_0_0_1_n_n 16 rfl rfl k
  have el : dot_S512x16_S16x4096_S512x4096_1_0_0_1_n_n.lhsIdx (ix2 p q) ((ValueIdx.contrEquiv1 dot_S512x16_S16x4096_S512x4096_1_0_0_1_n_n 16 rfl rfl).symm k) = ix2 p k := funext fun d => Fin.ext (by
    match d with
    | ⟨0, _⟩ => exact lhs_prod_0 _ _
    | ⟨1, _⟩ => exact (lhs_prod_1 _ _).trans hk)
  have er : dot_S512x16_S16x4096_S512x4096_1_0_0_1_n_n.rhsIdx (ix2 p q) ((ValueIdx.contrEquiv1 dot_S512x16_S16x4096_S512x4096_1_0_0_1_n_n 16 rfl rfl).symm k) = ix2 k q := funext fun d => Fin.ext (by
    match d with
    | ⟨0, _⟩ => exact (rhs_prod_0 _ _).trans hk
    | ⟨1, _⟩ => exact rhs_prod_1 _ _)
  rw [el, er]

/-- The summed block at (p, q): the base entry plus the product's. -/
private theorem sum_apply (w : Vec Ideal S512x4096 .f32) (b : Vec Ideal S512x16 .f32) (a : Vec Ideal S16x4096 .f32) (p : Fin 512) (q : Fin 4096) :
    (k0_pay1 w b a : S512x4096.Idx → EReal) (ix2 p q) = w (ix2 p q) + ∑ r : Fin 16, b (ix2 p r) * a (ix2 r q) := by
  unfold k0_pay1
  refine (addf_apply _ _ _).trans ?_
  exact congrArg (fun x => w (ix2 p q) + x) (prod_apply b a p q)

/-- The stored block is the summed block: a change of format changes nothing over the extended reals. -/
private theorem stored_apply (w : Vec Ideal S512x4096 .f32) (b : Vec Ideal S512x16 .f32) (a : Vec Ideal S16x4096 .f32) (p : Fin 512) (q : Fin 4096) :
    (k0_pay3 w b a : S512x4096.Idx → EReal) (ix2 p q) = w (ix2 p q) + ∑ r : Fin 16, b (ix2 p r) * a (ix2 r q) := by
  unfold k0_pay3
  exact (truncf_apply (ψ := .bf16) (k0_pay1 w b a) bitsLt_bf16_f32 (ix2 p q)).trans (sum_apply w b a p q)

/-- A vector of 512 entries cast to a column: entry (p, 0) is entry p. -/
private theorem col_apply {α : Type} (x : S512.Idx → α) (h : S512.ShapeCasts S512x1) (p : Fin 512) (z : Fin 1) :
    shapeCast S512x1 x h (ix2 p z) = x (ix1 p) :=
  shapeCast_apply x h _ _ (by
    rw [Shape.rowMajor_val_one, Shape.rowMajor_val_two]
    show p.val = p.val * 1 + z.val
    have := z.isLt
    omega)

/-- The sum along a row's 4096 lanes, from the neutral accumulator: the row's entries added. -/
private theorem lanes_apply (src : FVec Ideal S512x4096 .f32) (hφ : FKind.Formats .f32) (hacc : (0x00000000#32 : BitVec 32) = 0x00000000#32) (p : Fin 512) :
    multiReduction (F := Ideal) .add [1] S512 src 0x00000000#32 reduces_S512x4096_S512 hφ hacc (ix1 p) = ∑ q : Fin 4096, src (ix2 p q) := by
  refine (Ideal.multiReduction_add_single src 0x00000000#32 reduces_S512x4096_S512 hφ hacc (ix1 p)).trans ?_
  refine Finset.sum_congr rfl fun q _ => ?_
  refine congrArg src (funext fun d => Fin.ext ?_)
  match d with
  | ⟨0, _⟩ => rfl
  | ⟨1, _⟩ => rfl

/-- The scale block at (p, 0): the magnitude over the root of the summed row's sum of squares. -/
private theorem scale_apply (w : Vec Ideal S512x4096 .f32) (b : Vec Ideal S512x16 .f32) (a : Vec Ideal S16x4096 .f32) (g : Vec Ideal S512x1 .f32) (p : Fin 512) (z : Fin 1) :
    (k0_pay2 w b a g : S512x1.Idx → EReal) (ix2 p z)
      = Ideal.div (g (ix2 p z)) (Ideal.sqrt (∑ q : Fin 4096, (k0_pay1 w b a : S512x4096.Idx → EReal) (ix2 p q) * (k0_pay1 w b a : S512x4096.Idx → EReal) (ix2 p q))) := by
  unfold k0_pay2
  refine (divf_apply _ _ _).trans ?_
  rw [shapeCast_self]
  refine congrArg (fun x => Ideal.div (g (ix2 p z)) (Ideal.sqrt x)) ?_
  refine (col_apply _ _ p z).trans ?_
  exact lanes_apply _ _ _ p

/-! ## From blocks to the arrays

The grid has eight points; point t works on rows 512·t … 512·t + 511. Every windowed array but the first factor is cut
into eight row blocks, block t at block row t; the first factor has one block, itself. -/

/-- The block index of each of the six windows at each of the eight points, and the points' range. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ t.val < 8 :=
  (by decide +kernel : ∀ t : Fin grid0.N, _)

/-- Entry (p, q) of the base weight's block at point t is entry (512·t + p, q) of the base weight. -/
private theorem base_blk (c : Dev nD) (t : Fin cfg0.N) (p : Fin 512) (q : Fin 4096) (i : S4096x4096.Idx)
    (h0 : (i 0).val = 512 * t.val + p.val) (h1 : (i 1).val = q.val) :
    (baseB V c t : S512x4096.Idx → EReal) (ix2 p q) = (V c main_arg1 : S4096x4096.Idx → EReal) i := by
  obtain ⟨e0, e1, -⟩ := idx_facts t
  show (V c main_arg1 : S4096x4096.Idx → EReal) (((cfg0.win 0).blk t).view.emb (ix2 p q)) = _
  refine congrArg (V c main_arg1 : S4096x4096.Idx → EReal) (funext fun d => Fin.ext ?_)
  match d with
  | ⟨0, _⟩ => show win0_0.index t (0 : Fin 2) * 512 + 1 * p.val = (i 0).val; omega
  | ⟨1, _⟩ => show win0_0.index t (1 : Fin 2) * 4096 + 1 * q.val = (i 1).val; omega

/-- The first factor's block at any point is the first factor. -/
private theorem facA_blk (c : Dev nD) (t : Fin cfg0.N) (r : Fin 16) (q : Fin 4096) (i : S16x4096.Idx)
    (h0 : (i 0).val = r.val) (h1 : (i 1).val = q.val) :
    (loraAB V c t : S16x4096.Idx → EReal) (ix2 r q) = (V c main_arg2 : S16x4096.Idx → EReal) i := by
  obtain ⟨-, -, e0, e1, -⟩ := idx_facts t
  show (V c main_arg2 : S16x4096.Idx → EReal) (((cfg0.win 1).blk t).view.emb (ix2 r q)) = _
  refine congrArg (V c main_arg2 : S16x4096.Idx → EReal) (funext fun d => Fin.ext ?_)
  match d with
  | ⟨0, _⟩ => show win0_1.index t (0 : Fin 2) * 16 + 1 * r.val = (i 0).val; omega
  | ⟨1, _⟩ => show win0_1.index t (1 : Fin 2) * 4096 + 1 * q.val = (i 1).val; omega

/-- Entry (p, r) of the second factor's block at point t is entry (512·t + p, r) of the second factor. -/
private theorem facB_blk (c : Dev nD) (t : Fin cfg0.N) (p : Fin 512) (r : Fin 16) (i : S4096x16.Idx)
    (h0 : (i 0).val = 512 * t.val + p.val) (h1 : (i 1).val = r.val) :
    (loraBB V c t : S512x16.Idx → EReal) (ix2 p r) = (V c main_arg3 : S4096x16.Idx → EReal) i := by
  obtain ⟨-, -, -, -, e0, e1, -⟩ := idx_facts t
  show (V c main_arg3 : S4096x16.Idx → EReal) (((cfg0.win 2).blk t).view.emb (ix2 p r)) = _
  refine congrArg (V c main_arg3 : S4096x16.Idx → EReal) (funext fun d => Fin.ext ?_)
  match d with
  | ⟨0, _⟩ => show win0_2.index t (0 : Fin 2) * 512 + 1 * p.val = (i 0).val; omega
  | ⟨1, _⟩ => show win0_2.index t (1 : Fin 2) * 16 + 1 * r.val = (i 1).val; omega

/-- Entry (p, 0) of the magnitude column's block at point t is entry (512·t + p, 0) of the column. -/
private theorem mag_blk (c : Dev nD) (t : Fin cfg0.N) (p : Fin 512) (z : Fin 1) (i : S4096x1.Idx)
    (h0 : (i 0).val = 512 * t.val + p.val) (h1 : (i 1).val = z.val) :
    (magB V c t : S512x1.Idx → EReal) (ix2 p z) = (V c main_v1 : S4096x1.Idx → EReal) i := by
  obtain ⟨-, -, -, -, -, -, e0, e1, -⟩ := idx_facts t
  show (V c main_v1 : S4096x1.Idx → EReal) (((cfg0.win 3).blk t).view.emb (ix2 p z)) = _
  refine congrArg (V c main_v1 : S4096x1.Idx → EReal) (funext fun d => Fin.ext ?_)
  match d with
  | ⟨0, _⟩ => show win0_3.index t (0 : Fin 2) * 512 + 1 * p.val = (i 0).val; omega
  | ⟨1, _⟩ => show win0_3.index t (1 : Fin 2) * 1 + 1 * z.val = (i 1).val; omega

/-- Three blocks that are rows 512·t … of a base weight and a second factor, and a whole first factor: their sum of base
    and product at (p, q) is the adapted weight of the three arrays at the row and column (p, q) stands for. -/
private theorem aw_of_blocks (W : Cert.Spec.T2 4096 4096) (A : Cert.Spec.T2 16 4096) (B : Cert.Spec.T2 4096 16)
    (w : S512x4096.Idx → EReal) (b : S512x16.Idx → EReal) (a : S16x4096.Idx → EReal) (p : Fin 512) (q : Fin 4096) (i : S4096x4096.Idx)
    (hw : w (ix2 p q) = W i) (hb : ∀ r : Fin 16, b (ix2 p r) = B (ix2 (i 0) r)) (ha : ∀ r : Fin 16, a (ix2 r q) = A (ix2 r (i 1))) :
    w (ix2 p q) + ∑ r : Fin 16, b (ix2 p r) * a (ix2 r q) = Cert.Spec.aw W A B i := by
  show _ = W i + ∑ r : Fin 16, B (ix2 (i 0) r) * A (ix2 r (i 1))
  rw [hw]
  refine congrArg (fun x => W i + x) (Finset.sum_congr rfl fun r _ => ?_)
  rw [hb r, ha r]

/-- A magnitude block and a block of rows of a weight: magnitude over the root of the row's sum of squares, at (p, 0), is
    the scale column of the weight at the row p stands for. -/
private theorem scale_of_blocks (W : Cert.Spec.T2 4096 4096) (M : Cert.Spec.T2 4096 1)
    (s : S512x4096.Idx → EReal) (g : S512x1.Idx → EReal) (p : Fin 512) (z : Fin 1) (i : S4096x1.Idx)
    (hg : g (ix2 p z) = M i) (hs : ∀ k : Fin 4096, s (ix2 p k) = W (ix2 (i 0) k)) :
    Ideal.div (g (ix2 p z)) (Ideal.sqrt (∑ k : Fin 4096, s (ix2 p k) * s (ix2 p k))) = Cert.Spec.scaleCol W M i := by
  show _ = Ideal.div (M i) (Ideal.sqrt (∑ k : Fin 4096, W (ix2 (i 0) k) * W (ix2 (i 0) k)))
  rw [hg]
  refine congrArg (fun x => Ideal.div (M i) (Ideal.sqrt x)) (Finset.sum_congr rfl fun k _ => ?_)
  rw [hs k]

/-- The summed block at point t, at (p, q): the adapted weight at (512·t + p, q). -/
private theorem sum_blk (c : Dev nD) (t : Fin cfg0.N) (p : Fin 512) (q : Fin 4096) (i : S4096x4096.Idx)
    (h0 : (i 0).val = 512 * t.val + p.val) (h1 : (i 1).val = q.val) :
    (k0_pay1 (baseB V c t) (loraBB V c t) (loraAB V c t) : S512x4096.Idx → EReal) (ix2 p q)
      = Cert.Spec.aw (V c main_arg1) (V c main_arg2) (V c main_arg3) i :=
  (sum_apply (baseB V c t) (loraBB V c t) (loraAB V c t) p q).trans
    (aw_of_blocks (V c main_arg1) (V c main_arg2) (V c main_arg3) (baseB V c t) (loraBB V c t) (loraAB V c t) p q i
      (base_blk V c t p q i h0 h1)
      (fun r => facB_blk V c t p r (ix2 (i 0) r) h0 rfl)
      (fun r => facA_blk V c t r q (ix2 r (i 1)) rfl h1))

/-- What point t stores for the first result, at (p, q): the adapted weight at (512·t + p, q). -/
private theorem stored_blk (c : Dev nD) (t : Fin cfg0.N) (p : Fin 512) (q : Fin 4096) (i : S4096x4096.Idx)
    (h0 : (i 0).val = 512 * t.val + p.val) (h1 : (i 1).val = q.val) :
    (k0_pay3 (baseB V c t) (loraBB V c t) (loraAB V c t) : S512x4096.Idx → EReal) (ix2 p q)
      = Cert.Spec.aw (V c main_arg1) (V c main_arg2) (V c main_arg3) i :=
  (stored_apply (baseB V c t) (loraBB V c t) (loraAB V c t) p q).trans
    ((sum_apply (baseB V c t) (loraBB V c t) (loraAB V c t) p q).symm.trans (sum_blk V c t p q i h0 h1))

/-- What point t stores for the second result, at (p, 0): the scale of row 512·t + p. -/
private theorem scale_blk (c : Dev nD) (t : Fin cfg0.N) (p : Fin 512) (z : Fin 1) (i : S4096x1.Idx)
    (h0 : (i 0).val = 512 * t.val + p.val) (h1 : (i 1).val = z.val) :
    (k0_pay2 (baseB V c t) (loraBB V c t) (loraAB V c t) (magB V c t) : S512x1.Idx → EReal) (ix2 p z)
      = Cert.Spec.scaleCol (Cert.Spec.aw (V c main_arg1) (V c main_arg2) (V c main_arg3)) (V c main_v1) i :=
  (scale_apply (baseB V c t) (loraBB V c t) (loraAB V c t) (magB V c t) p z).trans
    (scale_of_blocks (Cert.Spec.aw (V c main_arg1) (V c main_arg2) (V c main_arg3)) (V c main_v1)
      (k0_pay1 (baseB V c t) (loraBB V c t) (loraAB V c t)) (magB V c t) p z i
      (mag_blk V c t p z i h0 h1)
      (fun k => sum_blk V c t p k (ix2 (i 0) k) h0 rfl))

/-- Point t writes back, for the first result, block t of the adapted weight. -/
private theorem flushed_aw (c : Dev nD) (t : Fin cfg0.N) :
    (dat0 (F := Ideal) V c).flushed 4 t
      = ((cfg0.win 4).blk t).view.read (Elt Ideal) (Cert.Spec.aw (V c main_arg1) (V c main_arg2) (V c main_arg3)) := by
  show (cfg0.win 4).cut (grid0.coords t) ((dat0 (F := Ideal) V c).after 4 t) = _
  rw [after0_4]
  obtain ⟨-, -, -, -, -, -, -, -, e0, e1, -⟩ := idx_facts t
  refine funext fun (j : S512x4096.Idx) => ?_
  obtain ⟨p, q, rfl⟩ : ∃ (p : Fin 512) (q : Fin 4096), j = ix2 p q := ⟨j 0, j 1, eq_ix2 j⟩
  show (k0_pay3 (baseB V c t) (loraBB V c t) (loraAB V c t) : S512x4096.Idx → EReal) (ix2 p q)
      = Cert.Spec.aw (V c main_arg1) (V c main_arg2) (V c main_arg3) (((cfg0.win 4).blk t).view.emb (ix2 p q))
  refine stored_blk V c t p q _ ?_ ?_
  · show win0_4.index t (0 : Fin 2) * 512 + 1 * p.val = 512 * t.val + p.val; omega
  · show win0_4.index t (1 : Fin 2) * 4096 + 1 * q.val = q.val; omega

/-- Point t writes back, for the second result, block t of the scale column. -/
private theorem flushed_scale (c : Dev nD) (t : Fin cfg0.N) :
    (dat0 (F := Ideal) V c).flushed 5 t
      = ((cfg0.win 5).blk t).view.read (Elt Ideal)
          (Cert.Spec.scaleCol (Cert.Spec.aw (V c main_arg1) (V c main_arg2) (V c main_arg3)) (V c main_v1)) := by
  show (cfg0.win 5).cut (grid0.coords t) ((dat0 (F := Ideal) V c).after 5 t) = _
  rw [after0_5]
  obtain ⟨-, -, -, -, -, -, -, -, -, -, e0, e1, -⟩ := idx_facts t
  refine funext fun (j : S512x1.Idx) => ?_
  obtain ⟨p, z, rfl⟩ : ∃ (p : Fin 512) (z : Fin 1), j = ix2 p z := ⟨j 0, j 1, eq_ix2 j⟩
  show (k0_pay2 (baseB V c t) (loraBB V c t) (loraAB V c t) (magB V c t) : S512x1.Idx → EReal) (ix2 p z)
      = Cert.Spec.scaleCol (Cert.Spec.aw (V c main_arg1) (V c main_arg2) (V c main_arg3)) (V c main_v1) (((cfg0.win 5).blk t).view.emb (ix2 p z))
  refine scale_blk V c t p z _ ?_ ?_
  · show win0_5.index t (0 : Fin 2) * 512 + 1 * p.val = 512 * t.val + p.val; omega
  · show win0_5.index t (1 : Fin 2) * 1 + 1 * z.val = z.val; omega

/-- An index of the first result is in point t's block iff each coordinate is in the block's range on its axis. -/
private theorem mem_blk_aw (t : Fin cfg0.N) (i : S4096x4096.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_v2_0).slice (win0_4.rect t)).set ↔ _
  rw [View.set_slice_whole, Rect.mem_set_unit]
  exact Iff.rfl

/-- The same for the second result. -/
private theorem mem_blk_scale (t : Fin cfg0.N) (i : S4096x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v2_1).slice (win0_5.rect t)).set ↔ _
  rw [View.set_slice_whole, Rect.mem_set_unit]
  exact Iff.rfl

/-- The point whose rows hold row n, for n below 4096: n / 512. -/
private theorem point_of_row (n : Nat) (hn : n < 4096) : ∃ t : Fin cfg0.N, t.val = n / 512 :=
  ⟨⟨n / 512, by show n / 512 < grid0.N; rw [N_0]; omega⟩, rfl⟩

/-- Every entry of the first result is in the block of the point that holds its row. -/
private theorem cover_aw (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := point_of_row (i 0).val hi0
  obtain ⟨-, -, -, -, -, -, -, -, e0, e1, -⟩ := idx_facts t
  refine ⟨t, flush0_4 t, ?_⟩
  rw [mem_blk_aw]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 4096 ≤ (i 1).val ∧ (i 1).val < win0_4.index t (1 : Fin 2) * 4096 + 4096; omega

/-- Every entry of the second result is in the block of the point that holds its row. -/
private theorem cover_scale (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  obtain ⟨t, ht⟩ := point_of_row (i 0).val hi0
  obtain ⟨-, -, -, -, -, -, -, -, -, -, e0, e1, -⟩ := idx_facts t
  refine ⟨t, flush0_5 t, ?_⟩
  rw [mem_blk_scale]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1 ≤ (i 1).val ∧ (i 1).val < win0_5.index t (1 : Fin 2) * 1 + 1; omega

/-- After the region the first result array holds the adapted weight of the three arrays the region found. -/
theorem aw_arr (c : Dev nD) :
    ((dat0 (F := Ideal) V c).arrAt 4 cfg0.N : S4096x4096.Idx → EReal)
      = Cert.Spec.aw (V c main_arg1) (V c main_arg2) (V c main_arg3) := by
  exact (dat0 (F := Ideal) V c).arrAt_eq_of_cover 4 (Cert.Spec.aw (V c main_arg1) (V c main_arg2) (V c main_arg3))
    (fun t _ => flushed_aw V c t) cover_aw

/-- After the region the second result array holds the scale column. -/
theorem scale_arr (c : Dev nD) :
    ((dat0 (F := Ideal) V c).arrAt 5 cfg0.N : S4096x1.Idx → EReal)
      = Cert.Spec.scaleCol (Cert.Spec.aw (V c main_arg1) (V c main_arg2) (V c main_arg3)) (V c main_v1) := by
  exact (dat0 (F := Ideal) V c).arrAt_eq_of_cover 5
    (Cert.Spec.scaleCol (Cert.Spec.aw (V c main_arg1) (V c main_arg2) (V c main_arg3)) (V c main_v1))
    (fun t _ => flushed_scale V c t) cover_scale

end Cert.KernelIdeal.Val

end
-- ==== Proof.Val1.lean ====
/-
  What the second kernel leaves in its result array, at the ideal instance, as a whole-array function of the arrays
  it was entered with: each token's inner product with each row of the weight, the contracted axis walked in two
  halves, times the row's scale.
-/
import proofs.«152272_j55087250538729_1_alg».proof.Proof.FrameKernelIdeal.R1Data
import proofs.«152272_j55087250538729_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frm

/-! The block product's operand indices: at output entry (p, q) and contracted position l the left operand is read
    at (p, l) and the right one at (q, l). -/

private theorem lhs_blockprod_0 (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
private theorem lhs_blockprod_1 (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
private theorem rhs_blockprod_0 (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
private theorem rhs_blockprod_1 (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-- The block product into the zero accumulator, at an entry: the inner product of a row of each operand. -/
private theorem blockprod_apply (x : FVec Ideal S512x2048 .bf16) (w : FVec Ideal S1024x2048 .bf16) (p : Fin 512) (q : Fin 1024) :
    FloatOps.matmul dot_S512x2048_S1024x2048_S512x1024_1_1_0_0_n_n none x w (constant (F := Ideal) S512x1024 .f32 0x00000000#32) (ix2 p q)
      = ∑ l : Fin 2048, x (ix2 p l) * w (ix2 q l) := by
  rw [Ideal.matmul_constant_zero_apply, ← Equiv.sum_comp (ValueIdx.contrEquiv1 dot_S512x2048_S1024x2048_S512x1024_1_1_0_0_n_n 2048 rfl rfl).symm]
  refine Finset.sum_congr rfl fun k _ => ?_
  have hk := ValueIdx.contrEquiv1_symm_val dot_S512x2048_S1024x2048_S512x1024_1_1_0_0_n_n 2048 rfl rfl k
  have el : dot_S512x2048_S1024x2048_S512x1024_1_1_0_0_n_n.lhsIdx (ix2 p q) ((ValueIdx.contrEquiv1 dot_S512x2048_S1024x2048_S512x1024_1_1_0_0_n_n 2048 rfl rfl).symm k) = ix2 p k := funext fun a => Fin.ext (by
    match a with
    | ⟨0, _⟩ => exact lhs_blockprod_0 _ _
    | ⟨1, _⟩ => exact (lhs_blockprod_1 _ _).trans hk)
  have er : dot_S512x2048_S1024x2048_S512x1024_1_1_0_0_n_n.rhsIdx (ix2 p q) ((ValueIdx.contrEquiv1 dot_S512x2048_S1024x2048_S512x1024_1_1_0_0_n_n 2048 rfl rfl).symm k) = ix2 q k := funext fun a => Fin.ext (by
    match a with
    | ⟨0, _⟩ => exact rhs_blockprod_0 _ _
    | ⟨1, _⟩ => exact (rhs_blockprod_1 _ _).trans hk)
  rw [el, er]

/-- The cleared accumulator is zero at every entry. -/
private theorem cleared_apply (p : Fin 512) (q : Fin 1024) : (k1_pay1 (F := Ideal)) (ix2 p q) = 0 := by
  unfold k1_pay1
  rw [shapeCast_self]
  exact Ideal.ofBits_zero_f32

/-- The accumulator update at an entry: what it held plus the inner product of the two blocks' rows. -/
private theorem accumulate_apply (x : Vec Ideal S512x2048 .f32) (w : Vec Ideal S1024x2048 .bf16) (a : Vec Ideal S512x1024 .f32)
    (p : Fin 512) (q : Fin 1024) :
    k1_pay2 x w a (ix2 p q) = a (ix2 p q) + ∑ l : Fin 2048, x (ix2 p l) * w (ix2 q l) := by
  unfold k1_pay2
  rw [shapeCast_self, shapeCast_self, shapeCast_self]
  show a (ix2 p q) + FloatOps.matmul dot_S512x2048_S1024x2048_S512x1024_1_1_0_0_n_n none (truncf .bf16 x bitsLt_bf16_f32) w (constant (F := Ideal) S512x1024 .f32 0x00000000#32) (ix2 p q) = _
  rw [blockprod_apply]
  rfl

/-- The stored block at an entry: the accumulator times the scale row's entry of that column. -/
private theorem scaled_apply (a : Vec Ideal S512x1024 .f32) (s : Vec Ideal S1x1024 .f32) (p : Fin 512) (q : Fin 1024) :
    k1_pay3 a s (ix2 p q) = a (ix2 p q) * s (ix2 (0 : Fin 1) q) := by
  unfold k1_pay3
  rw [shapeCast_self]
  show a (ix2 p q) * broadcastTo S512x1024 s broadcasts_S1x1024_S512x1024 (ix2 p q) = _
  rw [broadcastTo_1b_ab_apply]

variable (V : (c : Dev nD) → (b : Ref sig .tc) → Buf (Elt Ideal) ((c : Thread nD τ).loc b))

/-- The printed index maps, decided over the grid: with the last grid axis fastest, point t has token block t / 8,
    output-row block (t / 2) % 4 and contracted half t % 2. -/
private theorem point_blocks : ∀ t : Fin cfg1.N,
    win1_0.index t (0 : Fin 2) = t.val / 8 ∧ win1_0.index t (1 : Fin 2) = t.val % 2
    ∧ win1_1.index t (0 : Fin 2) = (t.val / 2) % 4 ∧ win1_1.index t (1 : Fin 2) = t.val % 2
    ∧ win1_2.index t (0 : Fin 2) = 0 ∧ win1_2.index t (1 : Fin 2) = (t.val / 2) % 4
    ∧ win1_3.index t (0 : Fin 2) = t.val / 8 ∧ win1_3.index t (1 : Fin 2) = (t.val / 2) % 4 :=
  (by decide +kernel : ∀ t : Fin grid1.N, _)

/-- The three arrays the region reads, as functions on their literal index types. -/
private abbrev tokens (c : Dev nD) : S8192x4096.Idx → EReal := V c main_v0
private abbrev weight (c : Dev nD) : S4096x4096.Idx → EReal := V c main_v2_0
private abbrev scaleRow (c : Dev nD) : S1x4096.Idx → EReal := V c main_v3

/-- An entry of the token block at a point is the token array's entry at block index times block size plus the
    coordinate inside the block, on each axis. -/
private theorem tokenBlock_apply (c : Dev nD) (t : Fin cfg1.N) (p : Fin 512) (l : Fin 2048) (r : Fin 8192) (k : Fin 4096)
    (hr : r.val = win1_0.index t (0 : Fin 2) * 512 + p.val) (hk : k.val = win1_0.index t (1 : Fin 2) * 2048 + l.val) :
    xB V c t (ix2 p l) = tokens V c (ix2 r k) := by
  show ((cfg1.win 0).blk t).view.read (Elt Ideal) (V c (Pipeline.arrRef spec1 0)) (ix2 p l) = _
  rw [View.read_apply]
  show tokens V c _ = _
  refine congrArg _ (funext fun a => Fin.ext ?_)
  match a with
  | ⟨0, _⟩ => show win1_0.index t (0 : Fin 2) * 512 + 1 * p.val = r.val; omega
  | ⟨1, _⟩ => show win1_0.index t (1 : Fin 2) * 2048 + 1 * l.val = k.val; omega

/-- The same for the weight block. -/
private theorem weightBlock_apply (c : Dev nD) (t : Fin cfg1.N) (q : Fin 1024) (l : Fin 2048) (o : Fin 4096) (k : Fin 4096)
    (ho : o.val = win1_1.index t (0 : Fin 2) * 1024 + q.val) (hk : k.val = win1_1.index t (1 : Fin 2) * 2048 + l.val) :
    wB V c t (ix2 q l) = weight V c (ix2 o k) := by
  show ((cfg1.win 1).blk t).view.read (Elt Ideal) (V c (Pipeline.arrRef spec1 1)) (ix2 q l) = _
  rw [View.read_apply]
  show weight V c _ = _
  refine congrArg _ (funext fun a => Fin.ext ?_)
  match a with
  | ⟨0, _⟩ => show win1_1.index t (0 : Fin 2) * 1024 + 1 * q.val = o.val; omega
  | ⟨1, _⟩ => show win1_1.index t (1 : Fin 2) * 2048 + 1 * l.val = k.val; omega

/-- The same for the block of the scale row. -/
private theorem scaleBlock_apply (c : Dev nD) (t : Fin cfg1.N) (q : Fin 1024) (o : Fin 4096)
    (h0 : win1_2.index t (0 : Fin 2) = 0) (ho : o.val = win1_2.index t (1 : Fin 2) * 1024 + q.val) :
    sB V c t (ix2 (0 : Fin 1) q) = scaleRow V c (ix2 (0 : Fin 1) o) := by
  show ((cfg1.win 2).blk t).view.read (Elt Ideal) (V c (Pipeline.arrRef spec1 2)) (ix2 (0 : Fin 1) q) = _
  rw [View.read_apply]
  show scaleRow V c _ = _
  refine congrArg _ (funext fun a => Fin.ext ?_)
  match a with
  | ⟨0, _⟩ => show win1_2.index t (0 : Fin 2) * 1 + 1 * (0 : Fin 1).val = (0 : Fin 1).val; rw [h0]; rfl
  | ⟨1, _⟩ => show win1_2.index t (1 : Fin 2) * 1024 + 1 * q.val = o.val; omega

/-- What an odd point stores, at an entry: the point before it has the same token block and output-row block and the
    first half of the contracted axis, so the two block products are the two halves of the whole inner product, and
    the scale row's entry is that of the output row. -/
private theorem stored_apply (c : Dev nD) (t : Fin cfg1.N) (hodd : t.val % 2 = 1) (p : Fin 512) (q : Fin 1024)
    (r : Fin 8192) (o : Fin 4096) (hr : r.val = t.val / 8 * 512 + p.val) (ho : o.val = t.val / 2 % 4 * 1024 + q.val) :
    out1 V c t (ix2 p q) = Cert.Spec.gemm (tokens V c) (weight V c) (scaleRow V c) (ix2 r o) := by
  have hpv : (prv t).val = t.val - 1 := rfl
  obtain ⟨a0, a1, b0, b1, s0, s1, -, -⟩ := point_blocks t
  obtain ⟨pa0, pa1, pb0, pb1, -, -, -, -⟩ := point_blocks (prv t)
  rw [hpv] at pa0 pa1 pb0 pb1
  have e1 : ∀ l : Fin 2048, xB V c (prv t) (ix2 p l) * wB V c (prv t) (ix2 q l)
      = tokens V c (ix2 r ⟨l.val, by omega⟩) * weight V c (ix2 o ⟨l.val, by omega⟩) := fun l => by
    rw [tokenBlock_apply V c (prv t) p l r ⟨l.val, by omega⟩ (by omega) (by show l.val = _; omega),
      weightBlock_apply V c (prv t) q l o ⟨l.val, by omega⟩ (by omega) (by show l.val = _; omega)]
  have e2 : ∀ l : Fin 2048, xB V c t (ix2 p l) * wB V c t (ix2 q l)
      = tokens V c (ix2 r ⟨2048 + l.val, by omega⟩) * weight V c (ix2 o ⟨2048 + l.val, by omega⟩) := fun l => by
    rw [tokenBlock_apply V c t p l r ⟨2048 + l.val, by omega⟩ (by omega) (by show 2048 + l.val = _; omega),
      weightBlock_apply V c t q l o ⟨2048 + l.val, by omega⟩ (by omega) (by show 2048 + l.val = _; omega)]
  unfold out1
  refine (scaled_apply (accB V c t) (sB V c t) p q).trans ?_
  unfold accB
  rw [accumulate_apply (xB V c t) (wB V c t) (accA V c (prv t)) p q]
  unfold accA
  rw [accumulate_apply (xB V c (prv t)) (wB V c (prv t)) (k1_pay1 (F := Ideal)) p q, cleared_apply p q,
    scaleBlock_apply V c t q o s0 (by omega), Finset.sum_congr rfl fun l _ => e1 l, Finset.sum_congr rfl fun l _ => e2 l]
  exact congrArg (· * scaleRow V c (ix2 (0 : Fin 1) o))
    (Cert.Spec.sum_halves fun k => tokens V c (ix2 r k) * weight V c (ix2 o k))

/-- What an odd point writes back is its block of the scaled product of the whole arrays. -/
private theorem written_back_eq (c : Dev nD) (t : Fin cfg1.N) (hf : (cfg1.win 3).flush t = true) :
    (dat1 (F := Ideal) V c).flushed 3 t
      = ((cfg1.win 3).blk t).view.read (Elt Ideal) (Cert.Spec.gemm (V c main_v0) (V c main_v2_0) (V c main_v3)) := by
  have hodd : t.val % 2 = 1 := (flush1_3 t).mp hf
  have ht : t.val < 128 := t.isLt
  obtain ⟨-, -, -, -, -, -, d0, d1⟩ := point_blocks t
  show (cfg1.win 3).cut (grid1.coords t) ((dat1 V c).after 3 t) = _
  rw [after1_3]
  funext j
  rw [View.read_apply]
  have hj0 : (j 0).val < 512 := (j 0).isLt
  have hj1 : (j 1).val < 1024 := (j 1).isLt
  have hx : (cfg1.win 3).xinj (grid1.coords t) j = ix2 (⟨(j 0).val, hj0⟩ : Fin 512) (⟨(j 1).val, hj1⟩ : Fin 1024) :=
    funext fun a => by match a with | ⟨0, _⟩ => rfl | ⟨1, _⟩ => rfl
  refine (congrArg (out1 V c t) hx).trans ?_
  refine (stored_apply V c t hodd ⟨(j 0).val, hj0⟩ ⟨(j 1).val, hj1⟩ ⟨t.val / 8 * 512 + (j 0).val, by omega⟩
    ⟨t.val / 2 % 4 * 1024 + (j 1).val, by omega⟩ rfl rfl).trans ?_
  show Cert.Spec.gemm (tokens V c) (weight V c) (scaleRow V c) _
    = Cert.Spec.gemm (tokens V c) (weight V c) (scaleRow V c) (((cfg1.win 3).blk t).view.emb j)
  refine congrArg _ (funext fun a => Fin.ext ?_)
  match a with
  | ⟨0, _⟩ => show t.val / 8 * 512 + (j 0).val = win1_3.index t (0 : Fin 2) * 512 + 1 * (j 0).val; omega
  | ⟨1, _⟩ => show t.val / 2 % 4 * 1024 + (j 1).val = win1_3.index t (1 : Fin 2) * 1024 + 1 * (j 1).val; omega

/-- An entry of the result array is in a point's block iff each coordinate is in the block's range on its axis. -/
private theorem mem_resultBlock (t : Fin cfg1.N) (i : S8192x4096.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v4).slice (win1_3.rect t)).set ↔ _
  rw [View.set_slice_whole, Rect.mem_set_unit]
  exact Iff.rfl

/-- Every entry (r, o) of the result array lies in the block of the odd point with token block r / 512 and
    output-row block o / 1024. -/
private theorem result_covered (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, htv⟩ : ∃ t : Fin cfg1.N, t.val = ((i 0).val / 512 * 4 + (i 1).val / 1024) * 2 + 1 :=
    ⟨⟨((i 0).val / 512 * 4 + (i 1).val / 1024) * 2 + 1, by rw [show cfg1.N = 128 from N_1]; omega⟩, rfl⟩
  obtain ⟨-, -, -, -, -, -, d0, d1⟩ := point_blocks t
  refine ⟨t, (flush1_3 t).mpr (by omega), ?_⟩
  rw [mem_resultBlock]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- After the region the result array holds the scaled product of the three arrays the region found. -/
theorem gemm_arr (c : Dev nD) :
    ((dat1 (F := Ideal) V c).arrAt 3 cfg1.N : S8192x4096.Idx → EReal)
      = Cert.Spec.gemm (V c main_v0) (V c main_v2_0) (V c main_v3) :=
  (dat1 (F := Ideal) V c).arrAt_eq_of_cover 3 (Cert.Spec.gemm (V c main_v0) (V c main_v2_0) (V c main_v3))
    (written_back_eq V c) result_covered

end Cert.KernelIdeal.Val

end
-- ==== Proof.Bridge.lean ====
/-
  The idealized kernel's result as one function of the five arguments: the second kernel's product of the reshaped
  tokens with the adapted weight, scaled by the row of magnitudes over norms, then reshaped. From the run, the value
  claim's post: every final memory holds that array in the result buffer and the arguments as launched.
-/
import proofs.«152272_j55087250538729_1_alg».proof.Proof.BridgeFold
import proofs.«152272_j55087250538729_1_alg».proof.Proof.Val0
import proofs.«152272_j55087250538729_1_alg».proof.Proof.Val1
import proofs.«152272_j55087250538729_1_alg».proof.Proof.FrameKernelIdeal.FrameOf
import proofs.«152272_j55087250538729_1_alg».proof.Proof.Spec

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frm

variable (m : (ℓ : Loc nD τ sig) → Buf (Elt Ideal) ℓ) (ρ : Dev nD → PrngReg)

/-- The product before the last reshape, as the specification's function of the arguments on core `c`. -/
def kOut (c : Dev nD) : S8192x4096.Idx → EReal :=
  Cert.Spec.gemm
    (shapeCast S8192x4096 (m ((c : Thread nD τ).loc main_arg0)) shapeCasts_S4x2048x4096_S8192x4096)
    (Cert.Spec.aw (m ((c : Thread nD τ).loc main_arg1)) (m ((c : Thread nD τ).loc main_arg2)) (m ((c : Thread nD τ).loc main_arg3)))
    (Cert.Spec.rowOf (Cert.Spec.scaleCol
      (Cert.Spec.aw (m ((c : Thread nD τ).loc main_arg1)) (m ((c : Thread nD τ).loc main_arg2)) (m ((c : Thread nD τ).loc main_arg3)))
      (Cert.Spec.colOf (m ((c : Thread nD τ).loc main_arg4)))))

/-- The weight the second kernel reads is the adapted weight of the arguments. -/
theorem weight_eq (c : Dev nD) :
    (Frm.V3 m c main_v2_0 : S4096x4096.Idx → EReal)
      = Cert.Spec.aw (m ((c : Thread nD τ).loc main_arg1)) (m ((c : Thread nD τ).loc main_arg2)) (m ((c : Thread nD τ).loc main_arg3)) :=
  (V3_v2_0 m c).trans ((aw_arr (Frm.V1 m) c).trans (by rw [V1_arg1, V1_arg2, V1_arg3]))

/-- The scale row the second kernel reads is the row of magnitudes over the adapted rows' norms. -/
theorem scale_eq (c : Dev nD) :
    (Frm.V3 m c main_v3 : S1x4096.Idx → EReal)
      = Cert.Spec.rowOf (Cert.Spec.scaleCol
          (Cert.Spec.aw (m ((c : Thread nD τ).loc main_arg1)) (m ((c : Thread nD τ).loc main_arg2)) (m ((c : Thread nD τ).loc main_arg3)))
          (Cert.Spec.colOf (m ((c : Thread nD τ).loc main_arg4)))) :=
  (V3_v3 m c).trans (by rw [scale_arr (Frm.V1 m) c, row_eq, V1_arg1, V1_arg2, V1_arg3, V1_v1, col_eq])

/-- The second kernel's result array at the end of its region is the specification's product. -/
theorem product_eq (c : Dev nD) : (W4 m c (Proc.devRef .tc main_v4) : S8192x4096.Idx → EReal) = kOut m c :=
  (W4_v4 m c).trans ((gemm_arr (Frm.V3 m) c).trans (by unfold kOut; rw [weight_eq m c, scale_eq m c, V3_v0 m c]))

/-- THE VALUE from the run: every weakly fair execution terminates, nothing faulting, the result buffer ends at the
    specification's product reshaped, and the five argument arrays end as launched. -/
theorem value_of_run
    (h : θ_run defs (onTc (τ := τ) (main (F := Ideal))) ⟨m, fun _ => 0, ρ⟩ (fun r => ∀ c : Dev nD,
      ∀ b ∈ Pipeline.ucRefs τ sig, r.2.mem (((c : Thread nD τ)).1, b) = W5 m c b)) :
    θ_run defs (onTc (τ := τ) (main (F := Ideal))) ⟨m, fun _ => 0, ρ⟩ (fun r => ∀ c : Dev nD,
      r.2.mem ((c.tc : Thread nD τ).loc main_v5) = shapeCast S4x2048x4096 (kOut m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v5 (by decide))).trans ((result_eq m c).trans (by rw [product_eq m c])),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) h

end Cert.KernelIdeal.Val

end
-- ==== Proof.RefValue.lean ====
/-
  The reference, read one operation at a time at the ideal instance, is the specification's function: at (token,
  output row) the token against the base row plus the token through the two low-rank factors, times the row's
  scale; and for finite entries that is the token against the adapted row, times the scale.
-/
import proofs.«152272_j55087250538729_1_alg».proof.Proof.Gen.ReferenceIdeal.Run
import proofs.«152272_j55087250538729_1_alg».proof.Proof.Gen.ReferenceIdeal.Read
import proofs.«152272_j55087250538729_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The stage that reshapes the tokens has only real entries when the tokens do: each entry is one of theirs. -/
private theorem finite_tokens (x0 : S4x2048x4096.Idx → EReal) (h0 : Cert.Spec.Finite x0) :
    Cert.Spec.Finite (val_main_v0 (F := Ideal) x0 : S8192x4096.Idx → EReal) := by
  intro i
  rw [val_main_v0_apply]
  exact h0 _

/-! The composed index maps of the reference, at (token t, output row o), as indices built from coordinates. -/

private theorem tok_base (t : Fin 8192) (o k : Fin 4096) : lidx_main_v10 (ix2 t o) k = ix2 t k :=
  funext fun a => Fin.ext (by match a with | ⟨0, _⟩ => rfl | ⟨1, _⟩ => rfl)

private theorem base_row (t : Fin 8192) (o k : Fin 4096) : idx_main_v9 (ridx_main_v10 (ix2 t o) k) = ix2 o k :=
  funext fun a => Fin.ext (by match a with | ⟨0, _⟩ => rfl | ⟨1, _⟩ => rfl)

private theorem tok_low (t : Fin 8192) (o k : Fin 4096) (r : Fin 16) :
    lidx_main_v2 (lidx_main_v4 (ix2 t o) r) k = ix2 t k :=
  funext fun a => Fin.ext (by match a with | ⟨0, _⟩ => rfl | ⟨1, _⟩ => rfl)

private theorem low_row (t : Fin 8192) (o k : Fin 4096) (r : Fin 16) :
    idx_main_v1 (ridx_main_v2 (lidx_main_v4 (ix2 t o) r) k) = ix2 r k :=
  funext fun a => Fin.ext (by match a with | ⟨0, _⟩ => rfl | ⟨1, _⟩ => rfl)

private theorem up_row (t : Fin 8192) (o : Fin 4096) (r : Fin 16) :
    idx_main_v3 (ridx_main_v4 (ix2 t o) r) = ix2 o r :=
  funext fun a => Fin.ext (by match a with | ⟨0, _⟩ => rfl | ⟨1, _⟩ => rfl)

private theorem scale_at (t : Fin 8192) (o : Fin 4096) : idx_main_v12 (idx_main_v13 (ix2 t o)) = ix1 o :=
  funext fun a => Fin.ext (by match a with | ⟨0, _⟩ => rfl)

private theorem norm_row (o k : Fin 4096) : idx_main_call0_v1 (ix1 o) k = ix2 o k :=
  funext fun a => Fin.ext (by match a with | ⟨0, _⟩ => rfl | ⟨1, _⟩ => rfl)

private theorem prod_up (o k : Fin 4096) (r : Fin 16) : lidx_main_v5 (ix2 o k) r = ix2 o r :=
  funext fun a => Fin.ext (by match a with | ⟨0, _⟩ => rfl | ⟨1, _⟩ => rfl)

private theorem prod_low (o k : Fin 4096) (r : Fin 16) : ridx_main_v5 (ix2 o k) r = ix2 r k :=
  funext fun a => Fin.ext (by match a with | ⟨0, _⟩ => rfl | ⟨1, _⟩ => rfl)

/-- The reference's product before its last reshape is the specification's scaled product of the reshaped tokens,
    the adapted weight and the scale row, when the tokens, the base weight and the two factors are finite. -/
theorem ref_value (x0 : S4x2048x4096.Idx → EReal) (x1 : S4096x4096.Idx → EReal) (x2 : S16x4096.Idx → EReal)
    (x3 : S4096x16.Idx → EReal) (x4 : S4096.Idx → EReal)
    (h0 : Cert.Spec.Finite x0) (h1 : Cert.Spec.Finite x1) (h2 : Cert.Spec.Finite x2) (h3 : Cert.Spec.Finite x3) :
    (val_main_v14 (F := Ideal) x0 x1 x2 x3 x4 : S8192x4096.Idx → EReal)
      = Cert.Spec.gemm (val_main_v0 (F := Ideal) x0) (Cert.Spec.aw x1 x2 x3)
          (Cert.Spec.rowOf (Cert.Spec.scaleCol (Cert.Spec.aw x1 x2 x3) (Cert.Spec.colOf x4))) := by
  funext i
  obtain ⟨t, o, rfl⟩ : ∃ (t : Fin 8192) (o : Fin 4096), i = ix2 t o := ⟨i 0, i 1, eq_ix2 i⟩
  -- the reference, one operation at a time, down to sums over the arguments
  rw [val_main_v14_apply, val_main_v11_apply, val_main_v10_apply, val_main_v4_apply, val_main_v13_apply,
    val_main_v12_apply, val_main_v8_apply, val_main_v7_apply, val_main_call0_v1_apply]
  simp only [val_main_v2_apply, val_main_v3_apply, val_main_v1_apply, val_main_v9_apply, val_main_call0_v0_apply,
    val_main_v6_apply, val_main_v5_apply, val_main_call0_cst_apply, Ideal.addf_def, Ideal.mulf_def,
    Ideal.hostDivf_def, Ideal.hostUnary_sqrt_def, Ideal.ofBits_def, Ideal.ofBits_zero_f32, zero_add,
    tok_base, base_row, tok_low, low_row, up_row, scale_at, norm_row, prod_up, prod_low]
  -- both sides are a sum at (t, o) times the scale of row o; the left sum is in the reference's order
  show Cert.Spec.refAcc (val_main_v0 (F := Ideal) x0) x1 x2 x3 t o
        * Cert.Spec.scaleVec (Cert.Spec.aw x1 x2 x3) x4 (ix1 o)
      = (∑ k : Fin 4096, val_main_v0 (F := Ideal) x0 (ix2 t k) * Cert.Spec.aw x1 x2 x3 (ix2 o k))
        * Cert.Spec.scaleVec (Cert.Spec.aw x1 x2 x3) x4 (ix1 o)
  rw [Cert.Spec.acc_eq_refAcc (val_main_v0 (F := Ideal) x0) x1 x2 x3 (finite_tokens x0 h0) h1 h2 h3 t o]

end Cert.ReferenceIdeal.RefValue

end
-- ==== Proof.Finite.lean ====
/-
  The precondition read back: it is the conjunction, over the five arguments, of "every entry's absolute value is
  below plus infinity". Over the extended reals that says every entry is a real number.
-/
import proofs.«152272_j55087250538729_1_alg».proof.Pre_finite_inputs
import proofs.«152272_j55087250538729_1_alg».proof.Proof.Spec
import Idealize.ShloMosaic.Lib.ReduceAll
import Idealize.ShloMosaic.Lib.ValueIdx
import Idealize.ShloMosaic.PureOps.Ideal.Laws

noncomputable section

namespace Cert.Pre_finite_inputs.Decode

open Idealize.ShloMosaic Idealize.ShloMosaic.ValueIdx Cert.Pre_finite_inputs

variable [Cert.Pre_finite_inputs.Facts]

instance : Subsingleton S_.Idx := ⟨fun a b => funext fun d => d.elim0⟩

/-- An extended real whose absolute value (the larger of it and its negative) is strictly below plus infinity is
    neither infinity: it is a real number. -/
theorem real_of_abs_lt_top (y : EReal)
    (h : FloatOps.cmpf (F := Ideal) (φ := .f32) CmpFPredicate.olt (FloatOps.hostAbsf y) (FloatOps.ofBits .f32 0x7F800000#32) = 1#1) :
    ∃ r : ℝ, y = (r : EReal) := by
  have htop : Ideal.ofBits .f32 0x7F800000#32 = ⊤ := by simp [Ideal.ofBits, Ideal.ieee]
  rw [Ideal.hostAbsf_def, Ideal.cmpf_def, Ideal.absf_def, Ideal.ofBits_def, htop] at h
  induction y using EReal.rec with
  | bot => simp [Ideal.cmp] at h
  | coe r => exact ⟨r, rfl⟩
  | top => simp [Ideal.cmp] at h

/-- Under the precondition every entry of every argument is a real number. -/
theorem finite_of_pre (x0 : FVec Ideal S4x2048x4096 .f32) (x1 : FVec Ideal S4096x4096 .f32) (x2 : FVec Ideal S16x4096 .f32)
    (x3 : FVec Ideal S4096x16 .f32) (x4 : FVec Ideal S4096 .f32)
    (h : fn (F := Ideal) x0 x1 x2 x3 x4 = fun _ => 1#1) :
    Cert.Spec.Finite x0 ∧ Cert.Spec.Finite x1 ∧ Cert.Spec.Finite x2 ∧ Cert.Spec.Finite x3 ∧ Cert.Spec.Finite x4 := by
  have h' := congrFun h ix0
  dsimp only [fn, fn_part1] at h'
  obtain ⟨h3, t4⟩ := IntOp.andi_eq_one.1 h'
  obtain ⟨h2, t3⟩ := IntOp.andi_eq_one.1 h3
  obtain ⟨h1, t2⟩ := IntOp.andi_eq_one.1 h2
  obtain ⟨t0, t1⟩ := IntOp.andi_eq_one.1 h1
  refine ⟨fun i => ?_, fun i => ?_, fun i => ?_, fun i => ?_, fun i => ?_⟩
  · have e := Host.reduce_andi_all _ _ _ _ _ t0 i
    simp only [cmpf, Host.absf, broadcastInDim, constant] at e
    exact real_of_abs_lt_top _ e
  · have e := Host.reduce_andi_all _ _ _ _ _ t1 i
    simp only [cmpf, Host.absf, broadcastInDim, constant] at e
    exact real_of_abs_lt_top _ e
  · have e := Host.reduce_andi_all _ _ _ _ _ t2 i
    simp only [cmpf, Host.absf, broadcastInDim, constant] at e
    exact real_of_abs_lt_top _ e
  · have e := Host.reduce_andi_all _ _ _ _ _ t3 i
    simp only [cmpf, Host.absf, broadcastInDim, constant] at e
    exact real_of_abs_lt_top _ e
  · have e := Host.reduce_andi_all _ _ _ _ _ t4 i
    simp only [cmpf, Host.absf, broadcastInDim, constant] at e
    exact real_of_abs_lt_top _ e

end Cert.Pre_finite_inputs.Decode

end
-- ==== Proof.lean ====
/-
  The kernel computes, for every token t and output row o,
      (Σ_k x(t,k) · (base(o,k) + Σ_r B(o,r)·A(r,k))) · (mag(o) / ‖base(o,·) + (B·A)(o,·)‖),
  in two launches: the first builds the adapted weight base + B·A block of rows by block of rows, together with
  each row's magnitude over its Euclidean norm; the second multiplies the tokens by the adapted weight, the
  contracted axis walked in two halves through an accumulator kept between grid points, and scales each column of
  the product once at the end. The reference computes
      (Σ_k x(t,k)·base(o,k) + Σ_r (Σ_k x(t,k)·A(r,k))·B(o,r)) · (mag(o) / ‖…‖)
  with the same norm. Over the extended reals the two agree when every entry is finite, by distributing the token
  over the adapted row and exchanging the two finite sums; finiteness is what the precondition states. Changes of
  float format are the identity at the ideal instance, so the weight's narrower storage format plays no part.

  The three frames: each kernel program runs as its two pipelined regions among three stretches of reshapes, every
  region's body proved at every grid point (the second region's in its two control cases, with the accumulator's
  contents tracked from point to point), and every argument array read back to its launch contents; the
  reference is a straight line of host operations.
-/
import proofs.«152272_j55087250538729_1_alg».proof.Defs
import proofs.«152272_j55087250538729_1_alg».proof.Proof.Gen.Kernel
import proofs.«152272_j55087250538729_1_alg».proof.Proof.Gen.KernelIdeal
import proofs.«152272_j55087250538729_1_alg».proof.Proof.Gen.ReferenceIdeal
import proofs.«152272_j55087250538729_1_alg».proof.Proof.Gen.Pre_finite_inputs
import proofs.«152272_j55087250538729_1_alg».proof.Proof.Gen.ReferenceIdeal.Run
import proofs.«152272_j55087250538729_1_alg».proof.Proof.Gen.ReferenceIdeal.Read
import proofs.«152272_j55087250538729_1_alg».proof.Proof.FrameKernel.Run
import proofs.«152272_j55087250538729_1_alg».proof.Proof.FrameKernel.FrameOf
import proofs.«152272_j55087250538729_1_alg».proof.Proof.FrameKernelIdeal.Run
import proofs.«152272_j55087250538729_1_alg».proof.Proof.FrameKernelIdeal.FrameOf
import proofs.«152272_j55087250538729_1_alg».proof.Proof.Bridge
import proofs.«152272_j55087250538729_1_alg».proof.Proof.RefValue
import proofs.«152272_j55087250538729_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its arguments unchanged. -/
theorem frame_kernel : Cert.frame_Kernel := fun m ρ _ =>
  Cert.Kernel.Frm.frame_of_run m ρ (Cert.Kernel.Frm.run_main (F := Bits) m ρ)

/-- So does the kernel read over the extended reals. -/
theorem frame_kernel_ideal : Cert.frame_KernelIdeal := fun m ρ _ =>
  Cert.KernelIdeal.Frm.frame_of_run m ρ (Cert.KernelIdeal.Frm.run_main (F := Ideal) m ρ)

/-- And the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the arguments, both programs end with the same result array: the kernel's is the
    specification's scaled product of the arguments (the run and the two kernels' value lemmas), the reference's is
    the same function by its operations read one at a time and the law of the two sums, which uses that the
    precondition makes every entry finite. -/
theorem algebraic : Cert.algebraic_KernelIdeal_ReferenceIdeal := by
  intro m ρ m' ρ' hpre hagree
  refine ⟨_,
    Cert.KernelIdeal.Val.value_of_run m ρ (Cert.KernelIdeal.Frm.run_main (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, _⟩ := Cert.Pre_finite_inputs.Decode.finite_of_pre _ _ _ _ _ (hpre c)
  rw [(hagree c).1, (hagree c).2.1, (hagree c).2.2.1, (hagree c).2.2.2.1, (hagree c).2.2.2.2]
  refine (Cert.ReferenceIdeal.Read.val_main_v15_eq _ _ _ _ _).trans ?_
  unfold Cert.ReferenceIdeal.Read.val_main_v15
  rw [Cert.ReferenceIdeal.RefValue.ref_value _ _ _ _ _ f0 f1 f2 f3]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
